-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x128 : Shape := ⟨3, ![512, 16, 128]⟩
abbrev S512x16x16 : Shape := ⟨3, ![512, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S512x16x128 : S_.BroadcastsInDim S512x16x128 (![] : Fin 0 → Fin S512x16x128.rank)
  reducesTo_S512x16x128_S_d0_1_2 : S512x16x128.ReducesTo [0, 1, 2] S_
  h_S_ : 0 < S_.numel
  bcast_S_S512x16x16 : S_.BroadcastsInDim S512x16x16 (![] : Fin 0 → Fin S512x16x16.rank)
  reducesTo_S512x16x16_S_d0_1_2 : S512x16x16.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x32 .f32) (main_arg7 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_v33

def fn {F : FTy → Type} [FloatOps F] (main_arg0 : FVec F S512x16x128 .f32) (main_arg1 : FVec F S512x16x16 .f32) (main_arg2 : FVec F S128x128 .f32) (main_arg3 : FVec F S128 .f32) (main_arg4 : FVec F S128x64 .f32) (main_arg5 : FVec F S64 .f32) (main_arg6 : FVec F S64x32 .f32) (main_arg7 : FVec F S32 .f32) : IVec S_ 1 :=
  let main_v0 : FVec F S512x16x128 .f32 := Host.absf main_arg0
  let main_cst : FVec F S_ .f32 := constant S_ .f32 0x7F800000#32
  let main_v1 : FVec F S512x16x128 .f32 := broadcastInDim S512x16x128 ![] bcast_S_S512x16x128 main_cst
  let main_v2 : IVec S512x16x128 1 := cmpf .olt main_v0 main_v1
  let main_c : IVec S_ 1 := constantI S_ 1 1#1
  let main_v3 : IVec S_ 1 := (fun x v => Host.reduce IntOp.andi x v reducesTo_S512x16x128_S_d0_1_2 h_S_) main_v2 main_c
  let main_v4 : FVec F S512x16x16 .f32 := Host.absf main_arg1
  let main_cst_0 : FVec F S_ .f32 := constant S_ .f32 0x7F800000#32
  let main_v5 : FVec F S512x16x16 .f32 := broadcastInDim S512x16x16 ![] bcast_S_S512x16x16 main_cst_0
  let main_v6 : IVec S512x16x16 1 := cmpf .olt main_v4 main_v5
  let main_c_1 : IVec S_ 1 := constantI S_ 1 1#1
  let main_v7 : IVec S_ 1 := (fun x v => Host.reduce IntOp.andi x v reducesTo_S512x16x16_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S512x16x128 : Shape := ⟨3, ![512, 16, 128]⟩
abbrev S512x16x16 : Shape := ⟨3, ![512, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x128 : Shape := ⟨2, ![1, 128]⟩
abbrev S1x64 : Shape := ⟨2, ![1, 64]⟩
abbrev S1x32 : Shape := ⟨2, ![1, 32]⟩
abbrev S512x32 : Shape := ⟨2, ![512, 32]⟩
abbrev S32x16x128 : Shape := ⟨3, ![32, 16, 128]⟩
abbrev S32x16x16 : Shape := ⟨3, ![32, 16, 16]⟩
abbrev S32x32 : Shape := ⟨2, ![32, 32]⟩
abbrev S512x128 : Shape := ⟨2, ![512, 128]⟩
abbrev S512x16 : Shape := ⟨2, ![512, 16]⟩
abbrev S512x512 : Shape := ⟨2, ![512, 512]⟩
abbrev S512x64 : Shape := ⟨2, ![512, 64]⟩
abbrev S32x16 : Shape := ⟨2, ![32, 16]⟩
abbrev S32x512 : Shape := ⟨2, ![32, 512]⟩
abbrev S32x64 : Shape := ⟨2, ![32, 64]⟩
abbrev S512x32x1x1 : Shape := ⟨4, ![512, 32, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S512x16x128, .f32⟩
  | .hbm, ⟨1, _⟩ => ⟨S512x16x16, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x128, .f32⟩
  | .hbm, ⟨9, _⟩ => ⟨S1x64, .f32⟩
  | .hbm, ⟨10, _⟩ => ⟨S1x32, .f32⟩
  | .hbm, ⟨11, _⟩ => ⟨S512x32, .f32⟩
  | .hbm, ⟨12, _⟩ => ⟨S512x32x1x1, .f32⟩
  | .local _ .vmem, ⟨0, _⟩ => ⟨S32x16x128, .f32⟩
  | .local _ .vmem, ⟨1, _⟩ => ⟨S32x16x128, .f32⟩
  | .local _ .vmem, ⟨2, _⟩ => ⟨S32x16x16, .f32⟩
  | .local _ .vmem, ⟨3, _⟩ => ⟨S32x16x16, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x32, .f32⟩
  | .local _ .vmem, ⟨11, _⟩ => ⟨S32x32, .f32⟩
  | _, _ => ⟨S512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S128_S1x128 : S128.ShapeCasts S1x128
  shapeCasts_S64_S1x64 : S64.ShapeCasts S1x64
  shapeCasts_S32_S1x32 : S32.ShapeCasts S1x32
  inb_S32x16x128_S32x16x128_0_0_0 : ∀ a, (![0, 0, 0] : Fin 3 → Nat) a + S32x16x128.size a ≤ S32x16x128.size a
  h_S32x16x128 : 0 < S32x16x128.numel
  shapeCasts_S32x16x128_S512x128 : S32x16x128.ShapeCasts S512x128
  inb_S32x16x16_S32x16x16_0_0_0 : ∀ a, (![0, 0, 0] : Fin 3 → Nat) a + S32x16x16.size a ≤ S32x16x16.size a
  h_S32x16x16 : 0 < S32x16x16.numel
  shapeCasts_S32x16x16_S512x16 : S32x16x16.ShapeCasts S512x16
  concatenates_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x512_d1 : Shape.Concatenates [S512x16, S512x16, S512x16, S512x16, S512x16, S512x16, S512x16, S512x16, S512x16, S512x16, S512x16, S512x16, S512x16, S512x16, S512x16, S512x16, S512x16, S512x16, S512x16, S512x16, S512x16, S512x16, S512x16, S512x16, S512x16, S512x16, S512x16, S512x16, S512x16, S512x16, S512x16, S512x16] S512x512 1
  iota_S512x512_d0_w32 : S512x512.Iotas .tc 32 [0]
  natLt_1_32 : 1 < 32
  iota_S512x512_d1_w32 : S512x512.Iotas .tc 32 [1]
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S32x16x16_S32x16 : S32x16x16.Reduces [1] S32x16
  concatenates_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x512_d1 : Shape.Concatenates [S32x16, S32x16, S32x16, S32x16, S32x16, S32x16, S32x16, S32x16, S32x16, S32x16, S32x16, S32x16, S32x16, S32x16, S32x16, S32x16, S32x16, S32x16, S32x16, S32x16, S32x16, S32x16, S32x16, S32x16, S32x16, S32x16, S32x16, S32x16, S32x16, S32x16, S32x16, S32x16] S32x512 1
  iota_S32x512_d0_w32 : S32x512.Iotas .tc 32 [0]
  iota_S32x512_d1_w32 : S32x512.Iotas .tc 32 [1]
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32x32 : S1x32.Broadcasts S32x32
  inb_S32x32_S32x32_0_0 : ∀ a, (![0, 0] : Fin 2 → Nat) a + S32x32.size a ≤ S32x32.size a
  h_S32x32 : 0 < S32x32.numel
  shapeCasts_S512x32_S512x32x1x1 : S512x32.ShapeCasts S512x32x1x1
  dot_S512x128_S128x128_S512x128_1_0_0_1_n_n_wf : DotDims.WF S512x128 S128x128 S512x128 [1] [0] [0] [1] [] []
  dot_S512x512_S512x128_S512x128_1_0_0_1_n_n_wf : DotDims.WF S512x512 S512x128 S512x128 [1] [0] [0] [1] [] []
  dot_S512x128_S128x64_S512x64_1_0_0_1_n_n_wf : DotDims.WF S512x128 S128x64 S512x64 [1] [0] [0] [1] [] []
  dot_S512x512_S512x64_S512x64_1_0_0_1_n_n_wf : DotDims.WF S512x512 S512x64 S512x64 [1] [0] [0] [1] [] []
  dot_S32x512_S512x64_S32x64_1_0_0_1_n_n_wf : DotDims.WF S32x512 S512x64 S32x64 [1] [0] [0] [1] [] []
  dot_S32x64_S64x32_S32x32_1_0_0_1_n_n_wf : DotDims.WF S32x64 S64x32 S32x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x128.size a ≤ S512x16x128.size a
  hwx0_0 : ∀ i : grid0.Coords, EltTy.bits .f32 = 32 ∨ (Rect.block (s := S512x16x128) S32x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16x16.size a ≤ S512x16x16.size a
  hwx0_1 : ∀ i : grid0.Coords, EltTy.bits .f32 = 32 ∨ (Rect.block (s := S512x16x16) S32x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S512x32.size a
  hwx0_8 : ∀ i : grid0.Coords, EltTy.bits .f32 = 32 ∨ (Rect.block (s := S512x32) S32x32.size (cc0_transform_8 i) (hinb0_8 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S32x512_S512x64_S32x64_1_0_0_1_n_n : DotDims S32x512 S512x64 S32x64 where
  lhsContracting := [1]
  rhsContracting := [0]
  lhsNonContracting := [0]
  rhsNonContracting := [1]
  lhsBatch := []
  rhsBatch := []
  wf := dot_S32x512_S512x64_S32x64_1_0_0_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf

abbrev win0_0 : Pipeline.Window sig grid0 :=
  Pipeline.Window.ofSpec (Memref.whole main_arg0) S32x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S32x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x16x128 : Shape := ⟨3, ![512, 16, 128]⟩
abbrev S512x16x16 : Shape := ⟨3, ![512, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S8192x128 : Shape := ⟨2, ![8192, 128]⟩
abbrev S512 : Shape := ⟨1, ![512]⟩
abbrev S_ : Shape := ⟨0, ![]⟩
abbrev S512x1x1 : Shape := ⟨3, ![512, 1, 1]⟩
abbrev S16 : Shape := ⟨1, ![16]⟩
abbrev S1x16x1 : Shape := ⟨3, ![1, 16, 1]⟩
abbrev S512x16x1 : Shape := ⟨3, ![512, 16, 1]⟩
abbrev S1x1x16 : Shape := ⟨3, ![1, 1, 16]⟩
abbrev S512x1x16 : Shape := ⟨3, ![512, 1, 16]⟩
abbrev S8192x8192 : Shape := ⟨2, ![8192, 8192]⟩
abbrev S512x16x16x1 : Shape := ⟨4, ![512, 16, 16, 1]⟩
abbrev S512x16x16x2 : Shape := ⟨4, ![512, 16, 16, 2]⟩
abbrev S1x128 : Shape := ⟨2, ![1, 128]⟩
abbrev S8192x64 : Shape := ⟨2, ![8192, 64]⟩
abbrev S1x64 : Shape := ⟨2, ![1, 64]⟩
abbrev S8192x32 : Shape := ⟨2, ![8192, 32]⟩
abbrev S1x32 : Shape := ⟨2, ![1, 32]⟩
abbrev S512x16x32 : Shape := ⟨3, ![512, 16, 32]⟩
abbrev S1x512x1x16x1x32 : Shape := ⟨6, ![1, 512, 1, 16, 1, 32]⟩
abbrev S512x32 : Shape := ⟨2, ![512, 32]⟩
abbrev S512x1x32 : Shape := ⟨3, ![512, 1, 32]⟩
abbrev S512x32x1 : Shape := ⟨3, ![512, 32, 1]⟩
abbrev S512x32x1x1 : Shape := ⟨4, ![512, 32, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S512x16x128, .f32⟩
  | .hbm, ⟨1, _⟩ => ⟨S512x16x16, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S8192x128, .f32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512x1x1, .i32⟩
  | .hbm, ⟨14, _⟩ => ⟨S16, .i32⟩
  | .hbm, ⟨15, _⟩ => ⟨S1x16x1, .i32⟩
  | .hbm, ⟨16, _⟩ => ⟨S512x16x1, .i32⟩
  | .hbm, ⟨17, _⟩ => ⟨S512x16x1, .i32⟩
  | .hbm, ⟨18, _⟩ => ⟨S512x16x1, .i32⟩
  | .hbm, ⟨19, _⟩ => ⟨S512x1x1, .i32⟩
  | .hbm, ⟨20, _⟩ => ⟨S16, .i32⟩
  | .hbm, ⟨21, _⟩ => ⟨S1x1x16, .i32⟩
  | .hbm, ⟨22, _⟩ => ⟨S512x1x16, .i32⟩
  | .hbm, ⟨23, _⟩ => ⟨S512x1x16, .i32⟩
  | .hbm, ⟨24, _⟩ => ⟨S512x1x16, .i32⟩
  | .hbm, ⟨25, _⟩ => ⟨S_, .f32⟩
  | .hbm, ⟨26, _⟩ => ⟨S8192x8192, .f32⟩
  | .hbm, ⟨27, _⟩ => ⟨S_, .i32⟩
  | .hbm, ⟨28, _⟩ => ⟨S512x16x1, .i32⟩
  | .hbm, ⟨29, _⟩ => ⟨S512x16x1, .i1⟩
  | .hbm, ⟨30, _⟩ => ⟨S_, .i32⟩
  | .hbm, ⟨31, _⟩ => ⟨S512x16x1, .i32⟩
  | .hbm, ⟨32, _⟩ => ⟨S512x16x1, .i32⟩
  | .hbm, ⟨33, _⟩ => ⟨S512x16x1, .i32⟩
  | .hbm, ⟨34, _⟩ => ⟨S_, .i32⟩
  | .hbm, ⟨35, _⟩ => ⟨S512x1x16, .i32⟩
  | .hbm, ⟨36, _⟩ => ⟨S512x1x16, .i1⟩
  | .hbm, ⟨37, _⟩ => ⟨S_, .i32⟩
  | .hbm, ⟨38, _⟩ => ⟨S512x1x16, .i32⟩
  | .hbm, ⟨39, _⟩ => ⟨S512x1x16, .i32⟩
  | .hbm, ⟨40, _⟩ => ⟨S512x1x16, .i32⟩
  | .hbm, ⟨41, _⟩ => ⟨S512x16x16, .i32⟩
  | .hbm, ⟨42, _⟩ => ⟨S512x16x16, .i32⟩
  | .hbm, ⟨43, _⟩ => ⟨S512x16x16x1, .i32⟩
  | .hbm, ⟨44, _⟩ => ⟨S512x16x16x1, .i32⟩
  | .hbm, ⟨45, _⟩ => ⟨S512x16x16x2, .i32⟩
  | .hbm, ⟨46, _⟩ => ⟨S8192x8192, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x64, .f32⟩
  | .hbm, ⟨56, _⟩ => ⟨S8192x64, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S_, .f32⟩
  | .hbm, ⟨61, _⟩ => ⟨S8192x64, .f32⟩
  | .hbm, ⟨62, _⟩ => ⟨S8192x64, .f32⟩
  | .hbm, ⟨63, _⟩ => ⟨S8192x32, .f32⟩
  | .hbm, ⟨64, _⟩ => ⟨S8192x32, .f32⟩
  | .hbm, ⟨65, _⟩ => ⟨S1x32, .f32⟩
  | .hbm, ⟨66, _⟩ => ⟨S8192x32, .f32⟩
  | .hbm, ⟨67, _⟩ => ⟨S8192x32, .f32⟩
  | .hbm, ⟨68, _⟩ => ⟨S512x16x32, .f32⟩
  | .hbm, ⟨69, _⟩ => ⟨S1x512x1x16x1x32, .f32⟩
  | .hbm, ⟨70, _⟩ => ⟨S1x512x1x16x1x32, .f32⟩
  | .hbm, ⟨71, _⟩ => ⟨S512x16x32, .f32⟩
  | .hbm, ⟨72, _⟩ => ⟨S_, .f32⟩
  | .hbm, ⟨73, _⟩ => ⟨S512x32, .f32⟩
  | .hbm, ⟨74, _⟩ => ⟨S512x1x32, .f32⟩
  | .hbm, ⟨75, _⟩ => ⟨S_, .f32⟩
  | .hbm, ⟨76, _⟩ => ⟨S512x1x32, .f32⟩
  | .hbm, ⟨77, _⟩ => ⟨S512x1x32, .f32⟩
  | .hbm, ⟨78, _⟩ => ⟨S512x32x1, .f32⟩
  | .hbm, ⟨79, _⟩ => ⟨S512x32x1x1, .f32⟩
  | _, _ => ⟨S512x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_cst : Ref sig .tc := ⟨.hbm, 60, rfl⟩
abbrev main_call1_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_cst_5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]

class Facts₀ : Prop where
  shapeCasts_S512x16x128_S8192x128 : S512x16x128.ShapeCasts S8192x128
  bcast_S_S512 : S_.BroadcastsInDim S512 (![] : Fin 0 → Fin S512.rank)
  bcast_S512_S512x1x1_0 : S512.BroadcastsInDim S512x1x1 (![0] : Fin 1 → Fin S512x1x1.rank)
  bcast_S16_S1x16x1_1 : S16.BroadcastsInDim S1x16x1 (![1] : Fin 1 → Fin S1x16x1.rank)
  bcast_S512x1x1_S512x16x1_0_1_2 : S512x1x1.BroadcastsInDim S512x16x1 (![0, 1, 2] : Fin 3 → Fin S512x16x1.rank)
  bcast_S1x16x1_S512x16x1_0_1_2 : S1x16x1.BroadcastsInDim S512x16x1 (![0, 1, 2] : Fin 3 → Fin S512x16x1.rank)
  bcast_S16_S1x1x16_2 : S16.BroadcastsInDim S1x1x16 (![2] : Fin 1 → Fin S1x1x16.rank)
  bcast_S512x1x1_S512x1x16_0_1_2 : S512x1x1.BroadcastsInDim S512x1x16 (![0, 1, 2] : Fin 3 → Fin S512x1x16.rank)
  bcast_S1x1x16_S512x1x16_0_1_2 : S1x1x16.BroadcastsInDim S512x1x16 (![0, 1, 2] : Fin 3 → Fin S512x1x16.rank)
  bcast_S_S8192x8192 : S_.BroadcastsInDim S8192x8192 (![] : Fin 0 → Fin S8192x8192.rank)
  bcast_S_S512x16x1 : S_.BroadcastsInDim S512x16x1 (![] : Fin 0 → Fin S512x16x1.rank)
  bcast_S_S512x1x16 : S_.BroadcastsInDim S512x1x16 (![] : Fin 0 → Fin S512x1x16.rank)
  bcast_S512x16x1_S512x16x16_0_1_2 : S512x16x1.BroadcastsInDim S512x16x16 (![0, 1, 2] : Fin 3 → Fin S512x16x16.rank)
  bcast_S512x1x16_S512x16x16_0_1_2 : S512x1x16.BroadcastsInDim S512x16x16 (![0, 1, 2] : Fin 3 → Fin S512x16x16.rank)
  bcast_S512x16x16_S512x16x16x1_0_1_2 : S512x16x16.BroadcastsInDim S512x16x16x1 (![0, 1, 2] : Fin 3 → Fin S512x16x16x1.rank)
  concatenates_S512x16x16x1_S512x16x16x1_S512x16x16x2_d3 : Shape.Concatenates [S512x16x16x1, S512x16x16x1] S512x16x16x2 3
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  shapeCasts_S8192x32_S512x16x32 : S8192x32.ShapeCasts S512x16x32
  shapeCasts_S512x16x32_S1x512x1x16x1x32 : S512x16x32.ShapeCasts S1x512x1x16x1x32
  bcast_S1x512x1x16x1x32_S1x512x1x16x1x32_0_1_2_3_4_5 : S1x512x1x16x1x32.BroadcastsInDim S1x512x1x16x1x32 (![0, 1, 2, 3, 4, 5] : Fin 6 → Fin S1x512x1x16x1x32.rank)
  shapeCasts_S1x512x1x16x1x32_S512x16x32 : S1x512x1x16x1x32.ShapeCasts S512x16x32
  reducesTo_S512x16x32_S512x32_d1 : S512x16x32.ReducesTo [1] S512x32
  h_S_ : 0 < S_.numel
  bcast_S512x32_S512x1x32_0_2 : S512x32.BroadcastsInDim S512x1x32 (![0, 2] : Fin 2 → Fin S512x1x32.rank)
  bcast_S_S512x1x32 : S_.BroadcastsInDim S512x1x32 (![] : Fin 0 → Fin S512x1x32.rank)
  transposes_S512x1x32_S512x32x1_0_2_1 : S512x1x32.Transposes [0, 2, 1] S512x32x1
  shapeCasts_S512x32x1_S512x32x1x1 : S512x32x1.ShapeCasts S512x32x1x1
  scatter_S8192x8192_S512x16x16x2_S512x16x16_n_01_01_3_wf : ScatterDims.WF S8192x8192 S512x16x16x2 S512x16x16 [] [0, 1] [0, 1] 3
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  dot_S8192x8192_S8192x32_S8192x32_1_0_0_1_n_n_wf : DotDims.WF S8192x8192 S8192x32 S8192x32 [1] [0] [0] [1] [] []

variable [Facts₀]

def scatter_S8192x8192_S512x16x16x2_S512x16x16_n_01_01_3 : ScatterDims S8192x8192 S512x16x16x2 S512x16x16 where
  updateWindowDims := []
  insertedWindowDims := [0, 1]
  scatterDimsToOperandDims := [0, 1]
  indexVectorDim := 3
  wf := scatter_S8192x8192_S512x16x16x2_S512x16x16_n_01_01_3_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.Spec.lean ====
/-
  The mathematics both programs compute, for ONE graph of 16 nodes, on the extended reals.

  A graph has an adjacency matrix `A i j` and node features; a layer sends features `X` (16 × p) to
  `max (A · (X · W) + β) 0` (16 × n): first the feature transform `feat X W j h = Σ_d X j d · W d h`,
  then the mix over the graph's own nodes `Σ_j A i j · feat X W j h`, the bias, and the rectifier.
  Two layers give the hidden features `hidden` (16 × 64). The third layer is followed by the mean over
  the 16 nodes, and the two programs arrange that last step differently:

  * `meanK`: the column sums of `A` are scaled by the constant 1/16 first, then contracted with the
    hidden features and with `W3`, and the bias is added once;
  * `meanR`: the third layer is applied node by node (mix, bias), the 16 rows are added up from zero,
    and the sum is divided by 16.

  Over the reals these agree (distributivity, and 16 · b / 16 = b); that is proved elsewhere under
  finiteness. Here are only the definitions, and the fact that a sum over a long axis whose terms
  vanish outside one aligned block of 16 is the sum over that block: it is what turns a product with a
  block-diagonal matrix into the mix over one graph's nodes.
-/
import Idealize.ShloMosaic.PureOps.Ideal

noncomputable section

namespace Cert.Gcn

open Idealize.ShloMosaic

/-- The feature transform of one graph: row `j` of `X · W`. -/
def feat {p n : ℕ} (X : Fin 16 → Fin p → EReal) (W : Fin p → Fin n → EReal) (j : Fin 16) (h : Fin n) : EReal :=
  ∑ d : Fin p, X j d * W d h

/-- One layer on one graph: `max (A · (X · W) + β) 0`. -/
def layer {p n : ℕ} (A : Fin 16 → Fin 16 → EReal) (X : Fin 16 → Fin p → EReal) (W : Fin p → Fin n → EReal)
    (β : Fin n → EReal) (i : Fin 16) (h : Fin n) : EReal :=
  max (∑ j : Fin 16, A i j * feat X W j h + β h) 0

/-- The hidden features after two layers. -/
def hidden (A : Fin 16 → Fin 16 → EReal) (X : Fin 16 → Fin 128 → EReal) (W1 : Fin 128 → Fin 128 → EReal)
    (b1 : Fin 128 → EReal) (W2 : Fin 128 → Fin 64 → EReal) (b2 : Fin 64 → EReal) : Fin 16 → Fin 64 → EReal :=
  layer A (layer A X W1 b1) W2 b2

/-- Third layer and node mean, the scaled column sums of `A` contracted first (the word is 1/16). -/
def meanK (A : Fin 16 → Fin 16 → EReal) (Y : Fin 16 → Fin 64 → EReal) (W3 : Fin 64 → Fin 32 → EReal)
    (b3 : Fin 32 → EReal) (o : Fin 32) : EReal :=
  ∑ k : Fin 64, (∑ j : Fin 16, ((∑ i : Fin 16, A i j) * Ideal.ofBits .f32 0x3D800000#32) * Y j k) * W3 k o + b3 o

/-- Third layer node by node, the rows added up from zero, the sum divided by the word 16. -/
def meanR (A : Fin 16 → Fin 16 → EReal) (Y : Fin 16 → Fin 64 → EReal) (W3 : Fin 64 → Fin 32 → EReal)
    (b3 : Fin 32 → EReal) (o : Fin 32) : EReal :=
  Ideal.div (0 + ∑ i : Fin 16, (∑ j : Fin 16, A i j * feat Y W3 j o + b3 o)) (Ideal.ofBits .f32 0x41800000#32)

/-- The whole network on one graph, the mean taken the first way. -/
def gcnK (A : Fin 16 → Fin 16 → EReal) (X : Fin 16 → Fin 128 → EReal) (W1 : Fin 128 → Fin 128 → EReal)
    (b1 : Fin 128 → EReal) (W2 : Fin 128 → Fin 64 → EReal) (b2 : Fin 64 → EReal) (W3 : Fin 64 → Fin 32 → EReal)
    (b3 : Fin 32 → EReal) : Fin 32 → EReal :=
  meanK A (hidden A X W1 b1 W2 b2) W3 b3

/-- The whole network on one graph, the mean taken the second way. -/
def gcnR (A : Fin 16 → Fin 16 → EReal) (X : Fin 16 → Fin 128 → EReal) (W1 : Fin 128 → Fin 128 → EReal)
    (b1 : Fin 128 → EReal) (W2 : Fin 128 → Fin 64 → EReal) (b2 : Fin 64 → EReal) (W3 : Fin 64 → Fin 32 → EReal)
    (b3 : Fin 32 → EReal) : Fin 32 → EReal :=
  meanR A (hidden A X W1 b1 W2 b2) W3 b3

/-- An extended real that is a real number: neither infinity. -/
def IsReal (x : EReal) : Prop := ∃ r : ℝ, x = (r : EReal)

/-- A sum over `Fin N` whose terms vanish outside the aligned block `[16 g, 16 g + 16)` is the sum
    over that block. -/
theorem sum_eq_sum_block {M : Type*} [AddCommMonoid M] {N : ℕ} (f : Fin N → M) (g : ℕ) (hg : g * 16 + 16 ≤ N)
    (hf : ∀ c : Fin N, c.val / 16 ≠ g → f c = 0) :
    ∑ c, f c = ∑ j : Fin 16, f ⟨g * 16 + j.val, by have := j.isLt; omega⟩ := by
  classical
  let e : Fin 16 ↪ Fin N := ⟨fun j => ⟨g * 16 + j.val, by have := j.isLt; omega⟩, fun a b h => by
    have h' := congrArg Fin.val h
    simp only at h'
    exact Fin.ext (by omega)⟩
  have hmap : ∑ j : Fin 16, f (e j) = ∑ c ∈ Finset.univ.map e, f c := (Finset.sum_map _ _ _).symm
  show _ = ∑ j : Fin 16, f (e j)
  rw [hmap]
  symm
  apply Finset.sum_subset (Finset.subset_univ _)
  intro c _ hc
  apply hf
  intro h
  apply hc
  rw [Finset.mem_map]
  refine ⟨⟨c.val % 16, Nat.mod_lt _ (by norm_num)⟩, Finset.mem_univ _, Fin.ext ?_⟩
  show g * 16 + c.val % 16 = c.val
  omega

end Cert.Gcn

end
-- ==== Proof.Algebra.lean ====
/-
  The two arrangements of the last layer and the node mean agree on real inputs.
-/
import proofs.«116657_g6493990551891_cont_9to1c4b_81_7_alg».proof.Proof.Spec

noncomputable section

namespace Cert.Gcn

open Idealize.ShloMosaic

/-! ### Real numbers are closed under the operations of a layer -/

private theorem isReal_add {x y : EReal} (hx : IsReal x) (hy : IsReal y) : IsReal (x + y) := by
  obtain ⟨a, rfl⟩ := hx
  obtain ⟨b, rfl⟩ := hy
  exact ⟨a + b, (EReal.coe_add a b).symm⟩

private theorem isReal_mul {x y : EReal} (hx : IsReal x) (hy : IsReal y) : IsReal (x * y) := by
  obtain ⟨a, rfl⟩ := hx
  obtain ⟨b, rfl⟩ := hy
  exact ⟨a * b, (EReal.coe_mul a b).symm⟩

private theorem isReal_zero : IsReal 0 := ⟨0, EReal.coe_zero.symm⟩

private theorem isReal_max {x y : EReal} (hx : IsReal x) (hy : IsReal y) : IsReal (max x y) := by
  rcases le_total x y with h | h
  · rw [max_eq_right h]; exact hy
  · rw [max_eq_left h]; exact hx

private theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

private theorem isReal_feat {p n : ℕ} {X : Fin 16 → Fin p → EReal} {W : Fin p → Fin n → EReal}
    (hX : ∀ j d, IsReal (X j d)) (hW : ∀ d h, IsReal (W d h)) (j : Fin 16) (h : Fin n) : IsReal (feat X W j h) :=
  isReal_sum _ _ fun d _ => isReal_mul (hX j d) (hW d h)

private theorem isReal_layer {p n : ℕ} {A : Fin 16 → Fin 16 → EReal} {X : Fin 16 → Fin p → EReal}
    {W : Fin p → Fin n → EReal} {β : Fin n → EReal} (hA : ∀ i j, IsReal (A i j)) (hX : ∀ j d, IsReal (X j d))
    (hW : ∀ d h, IsReal (W d h)) (hβ : ∀ h, IsReal (β h)) (i : Fin 16) (h : Fin n) : IsReal (layer A X W β i h) :=
  isReal_max (isReal_add (isReal_sum _ _ fun j _ => isReal_mul (hA i j) (isReal_feat hX hW j h)) (hβ h)) isReal_zero

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The two constants -/

private theorem ofBits_sixteenth : Ideal.ofBits .f32 0x3D800000#32 = ((1 / 16 : ℝ) : EReal) := by
  simp [Ideal.ofBits, Ideal.ieee, -EReal.coe_mul]; norm_num

private theorem ofBits_sixteen : Ideal.ofBits .f32 0x41800000#32 = ((16 : ℝ) : EReal) := by
  simp [Ideal.ofBits, Ideal.ieee, -EReal.coe_mul]; norm_num

/-! ### The identity over the reals -/

private theorem mean_real (a : Fin 16 → Fin 16 → ℝ) (y : Fin 16 → Fin 64 → ℝ) (w : Fin 64 → Fin 32 → ℝ)
    (β : Fin 32 → ℝ) (o : Fin 32) :
    ∑ k : Fin 64, (∑ j : Fin 16, ((∑ i : Fin 16, a i j) * (1 / 16 : ℝ)) * y j k) * w k o + β o
      = (0 + ∑ i : Fin 16, (∑ j : Fin 16, a i j * (∑ k : Fin 64, y j k * w k o) + β o)) * (1 / 16 : ℝ) := by
  have hβ : (∑ _i : Fin 16, β o) * (1 / 16 : ℝ) = β o := by
    rw [Finset.sum_const, Finset.card_univ, Fintype.card_fin, nsmul_eq_mul]
    push_cast
    ring
  have hmain : ∑ k : Fin 64, (∑ j : Fin 16, ((∑ i : Fin 16, a i j) * (1 / 16 : ℝ)) * y j k) * w k o
      = (∑ i : Fin 16, ∑ j : Fin 16, a i j * (∑ k : Fin 64, y j k * w k o)) * (1 / 16 : ℝ) := by
    calc ∑ k : Fin 64, (∑ j : Fin 16, ((∑ i : Fin 16, a i j) * (1 / 16 : ℝ)) * y j k) * w k o
        = ∑ k : Fin 64, ∑ j : Fin 16, ∑ i : Fin 16, a i j * (y j k * w k o) * (1 / 16 : ℝ) := by
          refine Finset.sum_congr rfl fun k _ => ?_
          rw [Finset.sum_mul]
          refine Finset.sum_congr rfl fun j _ => ?_
          rw [Finset.sum_mul, Finset.sum_mul, Finset.sum_mul]
          exact Finset.sum_congr rfl fun i _ => by ring
      _ = ∑ j : Fin 16, ∑ k : Fin 64, ∑ i : Fin 16, a i j * (y j k * w k o) * (1 / 16 : ℝ) := Finset.sum_comm
      _ = ∑ j : Fin 16, ∑ i : Fin 16, ∑ k : Fin 64, a i j * (y j k * w k o) * (1 / 16 : ℝ) :=
          Finset.sum_congr rfl fun j _ => Finset.sum_comm
      _ = ∑ i : Fin 16, ∑ j : Fin 16, ∑ k : Fin 64, a i j * (y j k * w k o) * (1 / 16 : ℝ) := Finset.sum_comm
      _ = (∑ i : Fin 16, ∑ j : Fin 16, a i j * (∑ k : Fin 64, y j k * w k o)) * (1 / 16 : ℝ) := by
          rw [Finset.sum_mul]
          refine Finset.sum_congr rfl fun i _ => ?_
          rw [Finset.sum_mul]
          refine Finset.sum_congr rfl fun j _ => ?_
          rw [Finset.mul_sum, Finset.sum_mul]
  rw [zero_add, Finset.sum_add_distrib, add_mul, hβ, hmain]

/-- On real inputs the network with the mean taken either way gives one value: the hidden features are real
    (sums, products and maxima of reals), and on reals
    `Σ_k (Σ_j ((Σ_i A i j) / 16) · Y j k) · W k o + b o = (0 + Σ_i (Σ_j A i j · (Σ_k Y j k · W k o) + b o)) / 16`. -/
theorem gcnK_eq_gcnR (A : Fin 16 → Fin 16 → EReal) (X : Fin 16 → Fin 128 → EReal) (W1 : Fin 128 → Fin 128 → EReal)
    (b1 : Fin 128 → EReal) (W2 : Fin 128 → Fin 64 → EReal) (b2 : Fin 64 → EReal) (W3 : Fin 64 → Fin 32 → EReal)
    (b3 : Fin 32 → EReal)
    (hA : ∀ i j, IsReal (A i j)) (hX : ∀ j d, IsReal (X j d)) (hW1 : ∀ d h, IsReal (W1 d h)) (hb1 : ∀ h, IsReal (b1 h))
    (hW2 : ∀ h k, IsReal (W2 h k)) (hb2 : ∀ k, IsReal (b2 k)) (hW3 : ∀ k o, IsReal (W3 k o)) (hb3 : ∀ o, IsReal (b3 o)) :
    gcnK A X W1 b1 W2 b2 W3 b3 = gcnR A X W1 b1 W2 b2 W3 b3 := by
  have hY : ∀ j k, IsReal (hidden A X W1 b1 W2 b2 j k) := fun j k =>
    isReal_layer hA (fun j d => isReal_layer hA hX hW1 hb1 j d) hW2 hb2 j k
  funext o
  show meanK A (hidden A X W1 b1 W2 b2) W3 b3 o = meanR A (hidden A X W1 b1 W2 b2) W3 b3 o
  generalize hidden A X W1 b1 W2 b2 = Y at hY
  choose a ha using hA
  choose y hy using hY
  choose w hw using hW3
  choose β hβ using hb3
  have e : meanK A Y W3 b3 o
      = ((∑ k : Fin 64, (∑ j : Fin 16, ((∑ i : Fin 16, a i j) * (1 / 16 : ℝ)) * y j k) * w k o + β o : ℝ) : EReal) := by
    simp only [meanK, ha, hy, hw, hβ, ofBits_sixteenth, coe_sum, EReal.coe_add, EReal.coe_mul]
  have e' : meanR A Y W3 b3 o
      = (((0 + ∑ i : Fin 16, (∑ j : Fin 16, a i j * (∑ k : Fin 64, y j k * w k o) + β o)) * (1 / 16 : ℝ) : ℝ) : EReal) := by
    simp only [meanR, feat, ha, hy, hw, hβ, ofBits_sixteen, Ideal.div_coe (by norm_num : (16 : ℝ) ≠ 0), coe_sum,
      EReal.coe_add, EReal.coe_mul, EReal.coe_zero]
  rw [e, e', mean_real]

end Cert.Gcn

end
-- ==== Proof.Finite.lean ====
/-
  Under the precondition every entry of every input is a real number.
-/
import proofs.«116657_g6493990551891_cont_9to1c4b_81_7_alg».proof.Pre_finite_inputs
import proofs.«116657_g6493990551891_cont_9to1c4b_81_7_alg».proof.Proof.Gen.Pre_finite_inputs
import proofs.«116657_g6493990551891_cont_9to1c4b_81_7_alg».proof.Proof.Spec
import Idealize.ShloMosaic.PureOps.Ideal
import Idealize.ShloMosaic.Lib.ReduceAll
import Idealize.ShloMosaic.Lib.ValueIdx

noncomputable section

namespace Cert.Gcn

open Idealize.ShloMosaic

/-- An extended real whose absolute value `max x (-x)` lies strictly below `⊤` is a real number:
    at `⊥` and at `⊤` the absolute value is `⊤` itself, and a coercion of `r` is witnessed by `r`. -/
private theorem isReal_of_abs_lt_top (x : EReal) (h : max x (-x) < ⊤) : IsReal x := by
  induction x using EReal.rec with
  | bot => simp at h
  | coe r => exact ⟨r, rfl⟩
  | top => simp at h

/-- The pattern `0x7F800000` (sign 0, exponent all ones, mantissa 0) denotes `+∞`. -/
private theorem inf_word : Ideal.ofBits .f32 0x7F800000#32 = ⊤ := by
  simp [Ideal.ofBits, Ideal.ieee]

/-- The rank-0 shape has exactly one index: the empty tuple. -/
private instance : Subsingleton Cert.Pre_finite_inputs.S_.Idx := ⟨fun a b => funext fun d => d.elim0⟩

/-- One conjunct of the precondition, for an input of any shape: if the conjunction over all entries of
    "`|x i| < +∞`" (a reduction by `and`, from 1, into the single rank-0 result) is 1, then every entry
    compares below `+∞` in absolute value, hence is real. -/
private theorem all_real {S : Shape} {axes : List (Fin S.rank)} (x : FVec Ideal S .f32)
    (hb : Cert.Pre_finite_inputs.S_.BroadcastsInDim S (![] : Fin 0 → Fin S.rank))
    (hred : S.ReducesTo axes Cert.Pre_finite_inputs.S_) (hS : 0 < Cert.Pre_finite_inputs.S_.numel)
    (j : Cert.Pre_finite_inputs.S_.Idx)
    (h : Host.reduce IntOp.andi (cmpf .olt (Host.absf x)
          (broadcastInDim S ![] hb (constant Cert.Pre_finite_inputs.S_ .f32 0x7F800000#32)))
          (constantI Cert.Pre_finite_inputs.S_ 1 1#1) hred hS j = 1#1) :
    ∀ i, IsReal (x i) := by
  intro i
  -- the reduction by `and` is 1, so the compared bit at `i` is 1
  have hi := Host.reduce_andi_all _ _ hred hS j h i
  -- that bit is the comparison `max (x i) (-(x i)) < +∞` on extended reals
  have hi' : Ideal.cmp .olt (max (x i) (-(x i))) (Ideal.ofBits .f32 0x7F800000#32) = 1#1 := hi
  rw [inf_word] at hi'
  apply isReal_of_abs_lt_top
  -- were the strict inequality false, the bit would be 0
  by_contra hn
  have h0 : Ideal.cmp .olt (max (x i) (-(x i))) ⊤ = 0#1 := by simp [Ideal.cmp, hn]
  rw [h0] at hi'
  exact absurd hi' (by decide)

/-- The precondition is the conjunction, input by input, of "every entry's absolute value is below +∞";
    an extended real whose absolute value is below +∞ is a real. -/
theorem real_of_pre (x0 : FVec Ideal Cert.Pre_finite_inputs.S512x16x128 .f32) (x1 : FVec Ideal Cert.Pre_finite_inputs.S512x16x16 .f32)
    (x2 : FVec Ideal Cert.Pre_finite_inputs.S128x128 .f32) (x3 : FVec Ideal Cert.Pre_finite_inputs.S128 .f32)
    (x4 : FVec Ideal Cert.Pre_finite_inputs.S128x64 .f32) (x5 : FVec Ideal Cert.Pre_finite_inputs.S64 .f32)
    (x6 : FVec Ideal Cert.Pre_finite_inputs.S64x32 .f32) (x7 : FVec Ideal Cert.Pre_finite_inputs.S32 .f32)
    (h : Cert.Pre_finite_inputs.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧
    (∀ i, IsReal (x4 i)) ∧ (∀ i, IsReal (x5 i)) ∧ (∀ i, IsReal (x6 i)) ∧ (∀ i, IsReal (x7 i)) := by
  -- the rank-0 result read at its one index: a left-nested chain of seven one-bit `and`s over the
  -- eight per-input conjunctions
  have h0 := congrFun h ValueIdx.ix0
  dsimp only [Cert.Pre_finite_inputs.fn, Cert.Pre_finite_inputs.fn_part1, Cert.Pre_finite_inputs.fn_part2] at h0
  -- a one-bit `and` is 1 exactly when both sides are: peel the chain from the outside in
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real x0 _ _ _ _ h0, all_real x1 _ _ _ _ h1, all_real x2 _ _ _ _ h2, all_real x3 _ _ _ _ h3,
    all_real x4 _ _ _ _ h4, all_real x5 _ _ _ _ h5, all_real x6 _ _ _ _ h6, all_real x7 _ _ _ _ h7⟩

end Cert.Gcn

end
-- ==== Proof.Scatter.lean ====
/-
  The reference's big adjacency matrix, read at an index: the scatter of the 512 blocks onto the
  diagonal of a zero matrix.
-/
import proofs.«116657_g6493990551891_cont_9to1c4b_81_7_alg».proof.Proof.Gen.ReferenceIdeal.Read
import Idealize.ShloMosaic.Lib.ValueIdx
import Idealize.ShloMosaic.Lib.WordArith

noncomputable section

namespace Cert.ReferenceIdeal.RefValue

open Cert.ReferenceIdeal Cert.ReferenceIdeal.Gen Idealize.ShloMosaic Idealize.ShloMosaic.ValueIdx

/-- A left fold of overwriting steps, read at a position no step writes: the starting value. -/
private theorem foldl_set_miss {ι κ α : Type} (g : κ → Option ι) (upd : κ → α)
    (step : (ι → α) → κ → ι → α)
    (hmiss : ∀ r k i', g k ≠ some i' → step r k i' = r i')
    (i : ι) : ∀ (l : List κ) (r : ι → α), (∀ k ∈ l, g k ≠ some i) → l.foldl step r i = r i := by
  intro l
  induction l with
  | nil => intro r _; rfl
  | cons a t ih =>
    intro r h
    rw [List.foldl_cons, ih (step r a) (fun k hk => h k (List.mem_cons_of_mem _ hk))]
    exact hmiss r a i (h a List.mem_cons_self)

/-- A left fold of overwriting steps, read at a position that exactly one update index writes
    (possibly several times in the list): that update's value. -/
private theorem foldl_set_hit {ι κ α : Type} (g : κ → Option ι) (upd : κ → α)
    (step : (ι → α) → κ → ι → α)
    (hmiss : ∀ r k i', g k ≠ some i' → step r k i' = r i')
    (hhit : ∀ r k i', g k = some i' → step r k i' = upd k)
    (i : ι) (j : κ) : ∀ (l : List κ) (r : ι → α), (∀ k ∈ l, g k = some i → k = j) →
      (∃ k ∈ l, g k = some i) → l.foldl step r i = upd j := by
  intro l
  induction l with
  | nil => intro r _ h; obtain ⟨k, hk, _⟩ := h; cases hk
  | cons a t ih =>
    intro r huniq hex
    rw [List.foldl_cons]
    by_cases ht : ∃ k ∈ t, g k = some i
    · exact ih (step r a) (fun k hk => huniq k (List.mem_cons_of_mem _ hk)) ht
    · have hta : ∀ k ∈ t, g k ≠ some i := fun k hk hg => ht ⟨k, hk, hg⟩
      rw [foldl_set_miss g upd step hmiss i t (step r a) hta]
      obtain ⟨k, hk, hg⟩ := hex
      rcases List.mem_cons.1 hk with rfl | hk'
      · rw [hhit r k i hg, huniq k List.mem_cons_self hg]
      · exact absurd hg (hta k hk')

section Scatter
variable {s si u : Shape} {w : Nat} {α : Type}

/-- One step of an overwriting scatter leaves every position but the one it lands on. -/
private theorem scatter_step_miss (d : ScatterDims s si u) (idx : IVec si w) (upd : u.Idx → α)
    (r : s.Idx → α) (k : u.Idx) (i' : s.Idx) (h : d.resultIdx? k idx ≠ some i') :
    (match d.resultIdx? k idx with
      | some i => fun i' => if i' = i then (fun (_ b : α) => b) (r i) (upd k) else r i'
      | none => r) i' = r i' := by
  cases hg : d.resultIdx? k idx with
  | none => rfl
  | some i =>
    have hne : i' ≠ i := fun e => h (by rw [hg, e])
    show (if i' = i then upd k else r i') = r i'
    rw [if_neg hne]

/-- One step of an overwriting scatter puts the update's value at the position it lands on. -/
private theorem scatter_step_hit (d : ScatterDims s si u) (idx : IVec si w) (upd : u.Idx → α)
    (r : s.Idx → α) (k : u.Idx) (i' : s.Idx) (h : d.resultIdx? k idx = some i') :
    (match d.resultIdx? k idx with
      | some i => fun i' => if i' = i then (fun (_ b : α) => b) (r i) (upd k) else r i'
      | none => r) i' = upd k := by
  rw [h]
  show (if i' = i' then upd k else r i') = upd k
  rw [if_pos rfl]

/-- An overwriting scatter, read at a position no update lands on: the operand's element. -/
private theorem scatter_set_miss (d : ScatterDims s si u) (x : s.Idx → α) (idx : IVec si w) (upd : u.Idx → α)
    (i : s.Idx) (h : ∀ k, d.resultIdx? k idx ≠ some i) :
    Host.scatter d (fun _ b => b) x idx upd i = x i := by
  unfold Host.scatter
  exact foldl_set_miss (fun n => d.resultIdx? (u.rowMajor.symm n) idx) (fun n => upd (u.rowMajor.symm n)) _
    (fun r n i' => scatter_step_miss d idx upd r (u.rowMajor.symm n) i') i _ x (fun n _ => h _)

/-- An overwriting scatter, read at a position exactly one update lands on: that update's element. -/
private theorem scatter_set_hit (d : ScatterDims s si u) (x : s.Idx → α) (idx : IVec si w) (upd : u.Idx → α)
    (i : s.Idx) (j : u.Idx) (huniq : ∀ k, d.resultIdx? k idx = some i → k = j)
    (hj : d.resultIdx? j idx = some i) :
    Host.scatter d (fun _ b => b) x idx upd i = upd j := by
  unfold Host.scatter
  have := foldl_set_hit (fun n => d.resultIdx? (u.rowMajor.symm n) idx) (fun n => upd (u.rowMajor.symm n)) _
    (fun r n i' => scatter_step_miss d idx upd r (u.rowMajor.symm n) i')
    (fun r n i' => scatter_step_hit d idx upd r (u.rowMajor.symm n) i') i (u.rowMajor j) _ x
    (fun n _ hn => by
      have := huniq _ hn
      rw [← this, Equiv.apply_symm_apply])
    ⟨u.rowMajor j, List.mem_finRange _, by rw [Equiv.symm_apply_apply]; exact hj⟩
  exact this.trans (by rw [Equiv.symm_apply_apply])

end Scatter

/-- The scatter's dimension numbers: no window axes, both operand axes inserted and scattered. -/
private abbrev dS := scatter_S8192x8192_S512x16x16x2_S512x16x16_n_01_01_3

/-- The window start on operand axis `a` for update `(b, i, j)` is component `a` of the index vector at
    `(b, i, j)`, read signed: both operand axes are scattered axes, in order. -/
private theorem start_eq (idx : IVec S512x16x16x2 32) (j : S512x16x16.Idx) (a : Fin 2) :
    dS.start j idx a = (idx (ix4 (j 0) (j 1) (j 2) (⟨a.val, a.isLt⟩ : Fin 2))).toInt := by
  unfold ScatterDims.start
  have ha : a ∈ dS.scatterDimsToOperandDims := by
    show a ∈ [(0 : Fin 2), 1]
    fin_cases a <;> simp
  rw [dif_pos ha]
  congr 2
  funext b
  fin_cases a <;> fin_cases b <;> rfl

/-- Both operand axes are inserted window axes: the window coordinate is zero. -/
private theorem window_eq (j : S512x16x16.Idx) (a : Fin 2) : dS.window j a = 0 := by
  unfold ScatterDims.window
  have ha : a ∉ dS.sKept := by
    show a ∉ S8192x8192.kept [(0 : Fin 2), 1]
    fin_cases a <;> decide
  rw [dif_neg ha]

open Idealize.ShloMosaic.WordArith

/-- The index word `16 b + i` built in 32-bit arithmetic, with the wrap-around of a negative index that
    never happens here, reads signed as the natural number `16 b + i`. -/
private theorem word_toInt (b i : Nat) (hb : b < 512) (hi : i < 16) :
    (Scalar.select (IntOp.cmpi .slt (IntOp.addi (IntOp.muli (BitVec.ofNat 32 b) 16#32) (BitVec.ofNat 32 i)) 0#32)
      (IntOp.addi (IntOp.addi (IntOp.muli (BitVec.ofNat 32 b) 16#32) (BitVec.ofNat 32 i)) 8192#32)
      (IntOp.addi (IntOp.muli (BitVec.ofNat 32 b) 16#32) (BitVec.ofNat 32 i))).toInt = ((16 * b + i : Nat) : Int) := by
  have hb' : (BitVec.ofNat 32 b).toInt = b := toInt_ofNat_small b (by omega)
  have hi' : (BitVec.ofNat 32 i).toInt = i := toInt_ofNat_small i (by omega)
  have h16 : (16#32).toInt = 16 := by decide
  have hm : (IntOp.muli (BitVec.ofNat 32 b) 16#32).toInt = b * 16 := by
    unfold IntOp.muli
    rw [toInt_mul_of_bounds _ _ (by rw [hb', h16]; omega) (by rw [hb', h16]; omega), hb', h16]
  have hX : (IntOp.addi (IntOp.muli (BitVec.ofNat 32 b) 16#32) (BitVec.ofNat 32 i)).toInt = b * 16 + i := by
    unfold IntOp.addi
    rw [toInt_add_of_bounds _ _ (by rw [hm, hi']; omega) (by rw [hm, hi']; omega), hm, hi']
  generalize IntOp.addi (IntOp.muli (BitVec.ofNat 32 b) 16#32) (BitVec.ofNat 32 i) = X at hX
  have hc : IntOp.cmpi .slt X 0#32 = 0#1 := by
    show BitVec.ofBool (X.slt 0#32) = 0#1
    have : X.slt 0#32 = false := by
      rw [BitVec.slt_eq_decide, hX]
      simp
      omega
    rw [this]; rfl
  rw [hc, select_zero, hX]
  push_cast; ring

/-- Component 0 of the index vector at `(b, i, j)` is the row `16 b + i`. -/
private theorem v31_row (b : Fin 512) (i j : Fin 16) :
    (Read.val_main_v31 (F := Ideal) (ix4 b i j (0 : Fin 2))).toInt = ((16 * b.val + i.val : Nat) : Int) := by
  unfold Read.val_main_v31
  rw [concatenate_pair_apply_left (t := S512x16x16x2) (s₁ := S512x16x16x1) (s₂ := S512x16x16x1) 3
    (Read.val_main_v29 (F := Ideal)) (Read.val_main_v30 (F := Ideal)) _ (ix4 b i j (0 : Fin 2)) rfl (ix4 b i j (0 : Fin 1))
    (fun a => by fin_cases a <;> rfl)]
  simp only [Read.val_main_v29_apply, Read.val_main_v27_apply, Read.val_main_v21_apply, Read.val_main_v18_apply,
    Read.val_main_v20_apply, Read.val_main_v9_apply, Read.val_main_v7_apply, Read.val_main_v8_apply,
    Read.val_main_v4_apply, Read.val_main_v6_apply, Read.val_main_v3_apply, Read.val_main_v5_apply,
    Read.val_main_v1_apply, Read.val_main_v2_apply, Read.val_main_c_apply, Read.val_main_v17_apply,
    Read.val_main_c_0_apply, Read.val_main_v19_apply, Read.val_main_c_1_apply]
  exact word_toInt b.val i.val b.isLt i.isLt

/-- Component 1 of the index vector at `(b, i, j)` is the column `16 b + j`. -/
private theorem v31_col (b : Fin 512) (i j : Fin 16) :
    (Read.val_main_v31 (F := Ideal) (ix4 b i j (1 : Fin 2))).toInt = ((16 * b.val + j.val : Nat) : Int) := by
  unfold Read.val_main_v31
  rw [concatenate_pair_apply_right (t := S512x16x16x2) (s₁ := S512x16x16x1) (s₂ := S512x16x16x1) 3
    (Read.val_main_v29 (F := Ideal)) (Read.val_main_v30 (F := Ideal)) _ (ix4 b i j (1 : Fin 2)) rfl rfl (ix4 b i j (0 : Fin 1))
    (fun a ha => by fin_cases a <;> first | rfl | exact absurd rfl ha) rfl]
  simp only [Read.val_main_v30_apply, Read.val_main_v28_apply, Read.val_main_v26_apply, Read.val_main_v23_apply,
    Read.val_main_v25_apply, Read.val_main_v15_apply, Read.val_main_v13_apply, Read.val_main_v14_apply,
    Read.val_main_v10_apply, Read.val_main_v12_apply, Read.val_main_v3_apply, Read.val_main_v11_apply,
    Read.val_main_v1_apply, Read.val_main_v2_apply, Read.val_main_c_apply, Read.val_main_v22_apply,
    Read.val_main_c_2_apply, Read.val_main_v24_apply, Read.val_main_c_3_apply]
  exact word_toInt b.val j.val b.isLt j.isLt

/-- Update `(b, i, j)` lands inside the matrix, at row `16 b + i` and column `16 b + j`. -/
private theorem resultIdx_eq (k : S512x16x16.Idx) :
    dS.resultIdx? k (Read.val_main_v31 (F := Ideal)) =
      some (ix2 (⟨16 * (k 0).val + (k 1).val, by have h0 : (k 0).val < 512 := (k 0).isLt; have h1 : (k 1).val < 16 := (k 1).isLt; omega⟩ : Fin 8192)
        (⟨16 * (k 0).val + (k 2).val, by have h0 : (k 0).val < 512 := (k 0).isLt; have h2 : (k 2).val < 16 := (k 2).isLt; omega⟩ : Fin 8192)) := by
  have b0 : (k 0).val < 512 := (k 0).isLt
  have b1 : (k 1).val < 16 := (k 1).isLt
  have b2 : (k 2).val < 16 := (k 2).isLt
  have h0 : dS.start k (Read.val_main_v31 (F := Ideal)) 0 + ((dS.window k 0 : Nat) : Int) = ((16 * (k 0).val + (k 1).val : Nat) : Int) := by
    rw [start_eq, window_eq]
    exact (add_zero _).trans (v31_row (k 0) (k 1) (k 2))
  have h1 : dS.start k (Read.val_main_v31 (F := Ideal)) 1 + ((dS.window k 1 : Nat) : Int) = ((16 * (k 0).val + (k 2).val : Nat) : Int) := by
    rw [start_eq, window_eq]
    exact (add_zero _).trans (v31_col (k 0) (k 1) (k 2))
  unfold ScatterDims.resultIdx?
  have hall : ∀ a, 0 ≤ dS.start k (Read.val_main_v31 (F := Ideal)) a + ((dS.window k a : Nat) : Int) ∧
      dS.start k (Read.val_main_v31 (F := Ideal)) a + ((dS.window k a : Nat) : Int) < ((S8192x8192.size a : Nat) : Int) := by
    intro a
    fin_cases a
    · show 0 ≤ dS.start k (Read.val_main_v31 (F := Ideal)) 0 + ((dS.window k 0 : Nat) : Int) ∧
        dS.start k (Read.val_main_v31 (F := Ideal)) 0 + ((dS.window k 0 : Nat) : Int) < ((8192 : Nat) : Int)
      rw [h0]; omega
    · show 0 ≤ dS.start k (Read.val_main_v31 (F := Ideal)) 1 + ((dS.window k 1 : Nat) : Int) ∧
        dS.start k (Read.val_main_v31 (F := Ideal)) 1 + ((dS.window k 1 : Nat) : Int) < ((8192 : Nat) : Int)
      rw [h1]; omega
  rw [dif_pos hall]
  congr 1
  funext a
  fin_cases a
  · apply Fin.ext
    show (dS.start k (Read.val_main_v31 (F := Ideal)) 0 + ((dS.window k 0 : Nat) : Int)).toNat = 16 * (k 0).val + (k 1).val
    rw [h0]; exact Int.toNat_natCast _
  · apply Fin.ext
    show (dS.start k (Read.val_main_v31 (F := Ideal)) 1 + ((dS.window k 1 : Nat) : Int)).toNat = 16 * (k 0).val + (k 2).val
    rw [h1]; exact Int.toNat_natCast _

/-- Entry `(r, c)` of the scattered matrix is entry `(r mod 16, c mod 16)` of block `r / 16` when row and
    column lie in the same block of 16, and zero otherwise: update `(b, i, j)` lands at row `16 b + i`,
    column `16 b + j`, these positions are pairwise distinct and inside the matrix, and every other
    entry keeps the zero it started with. -/
theorem bigAdj_apply (x1 : (⟨S512x16x16, .f32⟩ : BufTy).Contents (Elt Ideal)) (r c : Fin 8192) :
    Read.val_main_v32 (F := Ideal) x1 (ix2 r c) =
      if r.val / 16 = c.val / 16 then
        x1 (ix3 (⟨r.val / 16, by have := r.isLt; omega⟩ : Fin 512) (⟨r.val % 16, by omega⟩ : Fin 16) (⟨c.val % 16, by omega⟩ : Fin 16))
      else 0 := by
  have hr := r.isLt
  have hc := c.isLt
  unfold Read.val_main_v32
  by_cases h : r.val / 16 = c.val / 16
  · rw [if_pos h]
    refine scatter_set_hit dS _ _ x1 (ix2 r c) _ ?_ ?_
    · intro k hk
      rw [resultIdx_eq k] at hk
      have e := Option.some.inj hk
      have e0 : 16 * (k 0).val + (k 1).val = r.val := congrArg (fun f : S8192x8192.Idx => (f 0).val) e
      have e1 : 16 * (k 0).val + (k 2).val = c.val := congrArg (fun f : S8192x8192.Idx => (f 1).val) e
      have b1 : (k 1).val < 16 := (k 1).isLt
      have b2 : (k 2).val < 16 := (k 2).isLt
      rw [eq_ix3 k]
      funext a
      fin_cases a
      · apply Fin.ext; show (k 0).val = r.val / 16; omega
      · apply Fin.ext; show (k 1).val = r.val % 16; omega
      · apply Fin.ext; show (k 2).val = c.val % 16; omega
    · rw [resultIdx_eq]
      congr 1
      funext a
      fin_cases a
      · apply Fin.ext; show 16 * (r.val / 16) + r.val % 16 = r.val; omega
      · apply Fin.ext; show 16 * (r.val / 16) + c.val % 16 = c.val; omega
  · rw [if_neg h]
    rw [scatter_set_miss dS _ _ x1 (ix2 r c) ?_]
    · rw [Read.val_main_v16_apply, Read.val_main_cst_apply]
      exact Ideal.ofBits_zero_f32
    · intro k hk
      rw [resultIdx_eq k] at hk
      have e := Option.some.inj hk
      have e0 : 16 * (k 0).val + (k 1).val = r.val := congrArg (fun f : S8192x8192.Idx => (f 0).val) e
      have e1 : 16 * (k 0).val + (k 2).val = c.val := congrArg (fun f : S8192x8192.Idx => (f 1).val) e
      have b1 : (k 1).val < 16 := (k 1).isLt
      have b2 : (k 2).val < 16 := (k 2).isLt
      omega

end Cert.ReferenceIdeal.RefValue

end
-- ==== Proof.RefValue.lean ====
/-
  The reference's result, read at an index, is the network on that index's graph with the mean taken
  the second way.
-/
import proofs.«116657_g6493990551891_cont_9to1c4b_81_7_alg».proof.Proof.Gen.ReferenceIdeal.Read
import proofs.«116657_g6493990551891_cont_9to1c4b_81_7_alg».proof.Proof.Spec
import proofs.«116657_g6493990551891_cont_9to1c4b_81_7_alg».proof.Proof.Scatter
import Idealize.ShloMosaic.Lib.ValueIdx

noncomputable section

namespace Cert.ReferenceIdeal.RefValue

open Cert.ReferenceIdeal Cert.ReferenceIdeal.Gen Idealize.ShloMosaic Idealize.ShloMosaic.ValueIdx

/-- Row `16 b + i` of a flattened array: node `i` of graph `b`. -/
private def rvRow (b : Fin 512) (i : Fin 16) : Fin 8192 := ⟨b.val * 16 + i.val, by have := b.isLt; have := i.isLt; omega⟩

private theorem rvRow_val (b : Fin 512) (i : Fin 16) : (rvRow b i).val = b.val * 16 + i.val := rfl

/-- The flattened features at row `16 b + i` are node `i` of graph `b`. -/
private theorem rv_v0_at (x0 : (⟨S512x16x128, .f32⟩ : BufTy).Contents (Elt Ideal)) (b : Fin 512) (i : Fin 16) (d : Fin 128) :
    Read.val_main_v0 (F := Ideal) x0 (ix2 (rvRow b i) d) = x0 (ix3 b i d) := by
  rw [Read.val_main_v0_apply]
  refine congrArg x0 (funext fun a => Fin.ext ?_)
  have hb := b.isLt; have hi := i.isLt; have hd := d.isLt
  match a with
  | ⟨0, _⟩ => show ((b.val * 16 + i.val) * 128 + d.val) / 2048 = b.val; omega
  | ⟨1, _⟩ => show ((b.val * 16 + i.val) * 128 + d.val) / 128 % 16 = i.val; omega
  | ⟨2, _⟩ => show ((b.val * 16 + i.val) * 128 + d.val) % 128 = d.val; omega

/-- A product of the block-diagonal matrix's row `16 b + i` with a column is the mix over graph `b`'s own
    16 nodes: the row's entries outside block `b` are zero. -/
private theorem rv_adj_mix (x1 : (⟨S512x16x16, .f32⟩ : BufTy).Contents (Elt Ideal)) (f : Fin 8192 → EReal) (b : Fin 512) (i : Fin 16) :
    ∑ k : Fin 8192, Read.val_main_v32 (F := Ideal) x1 (ix2 (rvRow b i) k) * f k
      = ∑ j : Fin 16, x1 (ix3 b i j) * f (rvRow b j) := by
  have hb := b.isLt; have hi := i.isLt
  rw [Cert.Gcn.sum_eq_sum_block _ b.val (by omega)]
  · refine Finset.sum_congr rfl fun j _ => ?_
    have hj := j.isLt
    rw [bigAdj_apply, if_pos (by show (b.val * 16 + i.val) / 16 = (b.val * 16 + j.val) / 16; omega)]
    refine congrArg₂ (· * ·) (congrArg x1 (funext fun a => Fin.ext ?_)) rfl
    match a with
    | ⟨0, _⟩ => show (b.val * 16 + i.val) / 16 = b.val; omega
    | ⟨1, _⟩ => show (b.val * 16 + i.val) % 16 = i.val; omega
    | ⟨2, _⟩ => show (b.val * 16 + j.val) % 16 = j.val; omega
  · intro c hc
    rw [bigAdj_apply, if_neg (by show ¬ (b.val * 16 + i.val) / 16 = c.val / 16; omega), zero_mul]

/-- The first feature transform at row `16 b + j`: graph `b`'s node `j` through `W1`. -/
private theorem rv_v33_at (x0 : (⟨S512x16x128, .f32⟩ : BufTy).Contents (Elt Ideal)) (x2 : (⟨S128x128, .f32⟩ : BufTy).Contents (Elt Ideal))
    (b : Fin 512) (j : Fin 16) (h : Fin 128) :
    Read.val_main_v33 (F := Ideal) x0 x2 (ix2 (rvRow b j) h)
      = Cert.Gcn.feat (fun j d => x0 (ix3 b j d)) (fun d h => x2 (ix2 d h)) j h := by
  rw [Read.val_main_v33_apply]
  unfold Cert.Gcn.feat
  refine Finset.sum_congr rfl fun d _ => ?_
  have hl : Read.lidx_main_v33 (ix2 (rvRow b j) h) d = ix2 (rvRow b j) d :=
    funext fun a => by match a with | ⟨0, _⟩ => rfl | ⟨1, _⟩ => rfl
  have hr : Read.ridx_main_v33 (ix2 (rvRow b j) h) d = ix2 d h :=
    funext fun a => by match a with | ⟨0, _⟩ => rfl | ⟨1, _⟩ => rfl
  rw [hl, hr, rv_v0_at]

/-- The first layer at row `16 b + i`: graph `b`'s layer at node `i`. -/
private theorem rv_v38_at (x0 : (⟨S512x16x128, .f32⟩ : BufTy).Contents (Elt Ideal)) (x1 : (⟨S512x16x16, .f32⟩ : BufTy).Contents (Elt Ideal))
    (x2 : (⟨S128x128, .f32⟩ : BufTy).Contents (Elt Ideal)) (x3 : (⟨S128, .f32⟩ : BufTy).Contents (Elt Ideal))
    (b : Fin 512) (i : Fin 16) (h : Fin 128) :
    Read.val_main_v38 (F := Ideal) x0 x1 x2 x3 (ix2 (rvRow b i) h)
      = Cert.Gcn.layer (fun a c => x1 (ix3 b a c)) (fun j d => x0 (ix3 b j d)) (fun d h => x2 (ix2 d h)) (fun h => x3 (ix1 h)) i h := by
  rw [Read.val_main_v38_apply, Read.val_main_v37_apply, Read.val_main_v34_apply, Read.val_main_call0_v0_apply,
    Read.val_main_call0_cst_apply, Read.val_main_v36_apply, Read.val_main_v35_apply]
  rw [Ideal.maximumf_def, Ideal.addf_def, Ideal.ofBits_def, Ideal.ofBits_zero_f32]
  unfold Cert.Gcn.layer
  have hsum : (∑ k, Read.val_main_v32 (F := Ideal) x1 (Read.lidx_main_v34 (ix2 (rvRow b i) h) k) *
        Read.val_main_v33 (F := Ideal) x0 x2 (Read.ridx_main_v34 (ix2 (rvRow b i) h) k))
      = ∑ j : Fin 16, x1 (ix3 b i j) * Cert.Gcn.feat (fun j d => x0 (ix3 b j d)) (fun d h => x2 (ix2 d h)) j h := by
    calc _ = ∑ k, Read.val_main_v32 (F := Ideal) x1 (ix2 (rvRow b i) k) * (fun k => Read.val_main_v33 (F := Ideal) x0 x2 (ix2 k h)) k :=
          Finset.sum_congr rfl fun k _ => by
            have hl : Read.lidx_main_v34 (ix2 (rvRow b i) h) k = ix2 (rvRow b i) k :=
              funext fun a => by match a with | ⟨0, _⟩ => rfl | ⟨1, _⟩ => rfl
            have hr : Read.ridx_main_v34 (ix2 (rvRow b i) h) k = ix2 k h :=
              funext fun a => by match a with | ⟨0, _⟩ => rfl | ⟨1, _⟩ => rfl
            rw [hl, hr]
      _ = ∑ j : Fin 16, x1 (ix3 b i j) * Read.val_main_v33 (F := Ideal) x0 x2 (ix2 (rvRow b j) h) := rv_adj_mix x1 _ b i
      _ = _ := Finset.sum_congr rfl fun j _ => by rw [rv_v33_at]
  have hb : x3 (Read.idx_main_v35 (Read.idx_main_v36 (ix2 (rvRow b i) h))) = x3 (ix1 h) :=
    congrArg x3 (funext fun a => by match a with | ⟨0, _⟩ => rfl)
  rw [hsum, hb]

/-- The second feature transform at row `16 b + j`. -/
private theorem rv_v39_at (x0 : (⟨S512x16x128, .f32⟩ : BufTy).Contents (Elt Ideal)) (x1 : (⟨S512x16x16, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (b : Fin 512) (j : Fin 16) (k : Fin 64) :
    Read.val_main_v39 (F := Ideal) x0 x1 x2 x3 x4 (ix2 (rvRow b j) k)
      = Cert.Gcn.feat (Cert.Gcn.layer (fun a c => x1 (ix3 b a c)) (fun j d => x0 (ix3 b j d)) (fun d h => x2 (ix2 d h)) (fun h => x3 (ix1 h)))
          (fun h k => x4 (ix2 h k)) j k := by
  rw [Read.val_main_v39_apply]
  unfold Cert.Gcn.feat
  refine Finset.sum_congr rfl fun d _ => ?_
  have hl : Read.lidx_main_v39 (ix2 (rvRow b j) k) d = ix2 (rvRow b j) d :=
    funext fun a => by match a with | ⟨0, _⟩ => rfl | ⟨1, _⟩ => rfl
  have hr : Read.ridx_main_v39 (ix2 (rvRow b j) k) d = ix2 d k :=
    funext fun a => by match a with | ⟨0, _⟩ => rfl | ⟨1, _⟩ => rfl
  rw [hl, hr, rv_v38_at]

/-- The second layer at row `16 b + i`: graph `b`'s hidden features at node `i`. -/
private theorem rv_v44_at (x0 : (⟨S512x16x128, .f32⟩ : BufTy).Contents (Elt Ideal)) (x1 : (⟨S512x16x16, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (b : Fin 512) (i : Fin 16) (k : Fin 64) :
    Read.val_main_v44 (F := Ideal) x0 x1 x2 x3 x4 x5 (ix2 (rvRow b i) k)
      = Cert.Gcn.hidden (fun a c => x1 (ix3 b a c)) (fun j d => x0 (ix3 b j d)) (fun d h => x2 (ix2 d h)) (fun h => x3 (ix1 h))
          (fun h k => x4 (ix2 h k)) (fun k => x5 (ix1 k)) i k := by
  rw [Read.val_main_v44_apply, Read.val_main_v43_apply, Read.val_main_v40_apply, Read.val_main_call1_v0_apply,
    Read.val_main_call1_cst_apply, Read.val_main_v42_apply, Read.val_main_v41_apply]
  rw [Ideal.maximumf_def, Ideal.addf_def, Ideal.ofBits_def, Ideal.ofBits_zero_f32]
  unfold Cert.Gcn.hidden
  rw [Cert.Gcn.layer]
  have hsum : (∑ c, Read.val_main_v32 (F := Ideal) x1 (Read.lidx_main_v40 (ix2 (rvRow b i) k) c) *
        Read.val_main_v39 (F := Ideal) x0 x1 x2 x3 x4 (Read.ridx_main_v40 (ix2 (rvRow b i) k) c))
      = ∑ j : Fin 16, x1 (ix3 b i j) * Cert.Gcn.feat (Cert.Gcn.layer (fun a c => x1 (ix3 b a c)) (fun j d => x0 (ix3 b j d))
          (fun d h => x2 (ix2 d h)) (fun h => x3 (ix1 h))) (fun h k => x4 (ix2 h k)) j k := by
    calc _ = ∑ c, Read.val_main_v32 (F := Ideal) x1 (ix2 (rvRow b i) c) * (fun c => Read.val_main_v39 (F := Ideal) x0 x1 x2 x3 x4 (ix2 c k)) c :=
          Finset.sum_congr rfl fun c _ => by
            have hl : Read.lidx_main_v40 (ix2 (rvRow b i) k) c = ix2 (rvRow b i) c :=
              funext fun a => by match a with | ⟨0, _⟩ => rfl | ⟨1, _⟩ => rfl
            have hr : Read.ridx_main_v40 (ix2 (rvRow b i) k) c = ix2 c k :=
              funext fun a => by match a with | ⟨0, _⟩ => rfl | ⟨1, _⟩ => rfl
            rw [hl, hr]
      _ = ∑ j : Fin 16, x1 (ix3 b i j) * Read.val_main_v39 (F := Ideal) x0 x1 x2 x3 x4 (ix2 (rvRow b j) k) := rv_adj_mix x1 _ b i
      _ = _ := Finset.sum_congr rfl fun j _ => by rw [rv_v39_at]
  have hb : x5 (Read.idx_main_v41 (Read.idx_main_v42 (ix2 (rvRow b i) k))) = x5 (ix1 k) :=
    congrArg x5 (funext fun a => by match a with | ⟨0, _⟩ => rfl)
  rw [hsum, hb]

/-- The third feature transform at row `16 b + j`. -/
private theorem rv_v45_at (x0 : (⟨S512x16x128, .f32⟩ : BufTy).Contents (Elt Ideal)) (x1 : (⟨S512x16x16, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x32, .f32⟩ : BufTy).Contents (Elt Ideal)) (b : Fin 512) (j : Fin 16) (o : Fin 32) :
    Read.val_main_v45 (F := Ideal) x0 x1 x2 x3 x4 x5 x6 (ix2 (rvRow b j) o)
      = Cert.Gcn.feat (Cert.Gcn.hidden (fun a c => x1 (ix3 b a c)) (fun j d => x0 (ix3 b j d)) (fun d h => x2 (ix2 d h)) (fun h => x3 (ix1 h))
          (fun h k => x4 (ix2 h k)) (fun k => x5 (ix1 k))) (fun k o => x6 (ix2 k o)) j o := by
  rw [Read.val_main_v45_apply]
  unfold Cert.Gcn.feat
  refine Finset.sum_congr rfl fun d _ => ?_
  have hl : Read.lidx_main_v45 (ix2 (rvRow b j) o) d = ix2 (rvRow b j) d :=
    funext fun a => by match a with | ⟨0, _⟩ => rfl | ⟨1, _⟩ => rfl
  have hr : Read.ridx_main_v45 (ix2 (rvRow b j) o) d = ix2 d o :=
    funext fun a => by match a with | ⟨0, _⟩ => rfl | ⟨1, _⟩ => rfl
  rw [hl, hr, rv_v44_at]

/-- The third layer (no rectifier) at row `16 b + i`: the mix over graph `b`'s nodes and the bias. -/
private theorem rv_v49_at (x0 : (⟨S512x16x128, .f32⟩ : BufTy).Contents (Elt Ideal)) (x1 : (⟨S512x16x16, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal))
    (b : Fin 512) (i : Fin 16) (o : Fin 32) :
    Read.val_main_v49 (F := Ideal) x0 x1 x2 x3 x4 x5 x6 x7 (ix2 (rvRow b i) o)
      = ∑ j : Fin 16, x1 (ix3 b i j) * Cert.Gcn.feat (Cert.Gcn.hidden (fun a c => x1 (ix3 b a c)) (fun j d => x0 (ix3 b j d))
          (fun d h => x2 (ix2 d h)) (fun h => x3 (ix1 h)) (fun h k => x4 (ix2 h k)) (fun k => x5 (ix1 k))) (fun k o => x6 (ix2 k o)) j o
        + x7 (ix1 o) := by
  rw [Read.val_main_v49_apply, Read.val_main_v46_apply, Read.val_main_v48_apply, Read.val_main_v47_apply]
  rw [Ideal.addf_def]
  have hsum : (∑ c, Read.val_main_v32 (F := Ideal) x1 (Read.lidx_main_v46 (ix2 (rvRow b i) o) c) *
        Read.val_main_v45 (F := Ideal) x0 x1 x2 x3 x4 x5 x6 (Read.ridx_main_v46 (ix2 (rvRow b i) o) c))
      = ∑ j : Fin 16, x1 (ix3 b i j) * Cert.Gcn.feat (Cert.Gcn.hidden (fun a c => x1 (ix3 b a c)) (fun j d => x0 (ix3 b j d))
          (fun d h => x2 (ix2 d h)) (fun h => x3 (ix1 h)) (fun h k => x4 (ix2 h k)) (fun k => x5 (ix1 k))) (fun k o => x6 (ix2 k o)) j o := by
    calc _ = ∑ c, Read.val_main_v32 (F := Ideal) x1 (ix2 (rvRow b i) c) * (fun c => Read.val_main_v45 (F := Ideal) x0 x1 x2 x3 x4 x5 x6 (ix2 c o)) c :=
          Finset.sum_congr rfl fun c _ => by
            have hl : Read.lidx_main_v46 (ix2 (rvRow b i) o) c = ix2 (rvRow b i) c :=
              funext fun a => by match a with | ⟨0, _⟩ => rfl | ⟨1, _⟩ => rfl
            have hr : Read.ridx_main_v46 (ix2 (rvRow b i) o) c = ix2 c o :=
              funext fun a => by match a with | ⟨0, _⟩ => rfl | ⟨1, _⟩ => rfl
            rw [hl, hr]
      _ = ∑ j : Fin 16, x1 (ix3 b i j) * Read.val_main_v45 (F := Ideal) x0 x1 x2 x3 x4 x5 x6 (ix2 (rvRow b j) o) := rv_adj_mix x1 _ b i
      _ = _ := Finset.sum_congr rfl fun j _ => by rw [rv_v45_at]
  have hb : x7 (Read.idx_main_v47 (Read.idx_main_v48 (ix2 (rvRow b i) o))) = x7 (ix1 o) :=
    congrArg x7 (funext fun a => by match a with | ⟨0, _⟩ => rfl)
  rw [hsum, hb]

/-- The tile by one (a reshape to rank 6, the identity broadcast, the reshape back) changes nothing. -/
private theorem rv_v53_eq (x0 : (⟨S512x16x128, .f32⟩ : BufTy).Contents (Elt Ideal)) (x1 : (⟨S512x16x16, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    Read.val_main_v53 (F := Ideal) x0 x1 x2 x3 x4 x5 x6 x7 = Read.val_main_v50 (F := Ideal) x0 x1 x2 x3 x4 x5 x6 x7 := by
  have h52 : Read.val_main_v52 (F := Ideal) x0 x1 x2 x3 x4 x5 x6 x7 = Read.val_main_v51 (F := Ideal) x0 x1 x2 x3 x4 x5 x6 x7 :=
    funext fun i => by
      rw [Read.val_main_v52_apply]
      refine congrArg _ (funext fun a => Fin.ext ?_)
      have h0 : (i 0).val < 1 := (i 0).isLt
      have h2 : (i 2).val < 1 := (i 2).isLt
      have h4 : (i 4).val < 1 := (i 4).isLt
      match a with
      | ⟨0, _⟩ => show 0 = (i 0).val; omega
      | ⟨1, _⟩ => rfl
      | ⟨2, _⟩ => show 0 = (i 2).val; omega
      | ⟨3, _⟩ => rfl
      | ⟨4, _⟩ => show 0 = (i 4).val; omega
      | ⟨5, _⟩ => rfl
  unfold Read.val_main_v53
  rw [h52]
  unfold Read.val_main_v51
  exact shapeCast_shapeCast _ _ _

/-- Result entry `(b, o, 0, 0)`: every product with the big adjacency matrix collapses to the mix over graph
    `b`'s own 16 nodes (its other entries are zero), rows `16 b + i` of the flattened features are node `i` of
    graph `b`, and the tail (reshape, sum over the nodes, division, transpose) is `meanR`. -/
theorem ref_apply (x0 : (⟨S512x16x128, .f32⟩ : BufTy).Contents (Elt Ideal)) (x1 : (⟨S512x16x16, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) (i : S512x32x1x1.Idx) :
    Read.val_main_v59 (F := Ideal) x0 x1 x2 x3 x4 x5 x6 x7 i =
      Cert.Gcn.gcnR (fun a b => x1 (ix3 (⟨(i 0).val, (i 0).isLt⟩ : Fin 512) a b)) (fun j d => x0 (ix3 (⟨(i 0).val, (i 0).isLt⟩ : Fin 512) j d))
        (fun d h => x2 (ix2 d h)) (fun h => x3 (ix1 h)) (fun h k => x4 (ix2 h k)) (fun k => x5 (ix1 k))
        (fun k o => x6 (ix2 k o)) (fun o => x7 (ix1 o)) (⟨(i 1).val, (i 1).isLt⟩ : Fin 32) := by
  have h0 : (i 0).val < 512 := (i 0).isLt
  have h1 : (i 1).val < 32 := (i 1).isLt
  have h2 : (i 2).val < 1 := (i 2).isLt
  have h3 : (i 3).val < 1 := (i 3).isLt
  have e59 : Read.idx_main_v59 i = ix3 (⟨(i 0).val, (i 0).isLt⟩ : Fin 512) (⟨(i 1).val, (i 1).isLt⟩ : Fin 32) (0 : Fin 1) :=
    funext fun a => Fin.ext (by
      match a with
      | ⟨0, _⟩ => show ((((i 0).val * 32 + (i 1).val) * 1 + (i 2).val) * 1 + (i 3).val) / 32 = (i 0).val; omega
      | ⟨1, _⟩ => show ((((i 0).val * 32 + (i 1).val) * 1 + (i 2).val) * 1 + (i 3).val) / 1 % 32 = (i 1).val; omega
      | ⟨2, _⟩ => rfl)
  rw [Read.val_main_v59_apply, e59, Read.val_main_v58_apply, Read.val_main_v57_apply, Read.val_main_v55_apply,
    Read.val_main_v56_apply, Read.val_main_cst_5_apply, Read.val_main_v54_apply, Read.val_main_cst_4_apply]
  rw [Ideal.hostDivf_def, Ideal.ofBits_def, Ideal.ofBits_def, Ideal.ofBits_zero_f32]
  unfold Cert.Gcn.gcnR Cert.Gcn.meanR
  refine congrArg (fun s => Ideal.div (0 + s) (Ideal.ofBits FTy.f32 0x41800000#32)) (Finset.sum_congr rfl fun k _ => ?_)
  have hk := k.isLt
  have e50 : Read.idx_main_v50 (Read.idx_main_v54 (Read.idx_main_v55 (Read.idx_main_v58
        (ix3 (⟨(i 0).val, (i 0).isLt⟩ : Fin 512) (⟨(i 1).val, (i 1).isLt⟩ : Fin 32) (0 : Fin 1)))) k)
      = ix2 (rvRow (⟨(i 0).val, (i 0).isLt⟩ : Fin 512) k) (⟨(i 1).val, (i 1).isLt⟩ : Fin 32) :=
    funext fun a => Fin.ext (by
      match a with
      | ⟨0, _⟩ => show (((i 0).val * 16 + k.val) * 32 + (i 1).val) / 32 = (i 0).val * 16 + k.val; omega
      | ⟨1, _⟩ => show (((i 0).val * 16 + k.val) * 32 + (i 1).val) % 32 = (i 1).val; omega)
  rw [rv_v53_eq, Read.val_main_v50_apply, e50, rv_v49_at]

end Cert.ReferenceIdeal.RefValue

end
-- ==== Proof.KerPieces.lean ====
/-
  The integer side of the kernel body, read at an index, and the body's float side with the masked
  tiles as parameters.

  The body builds two 0/1 masks from lane and sublane numbers by jnp's floor division (quotient
  toward zero, corrected where the signs differ and the remainder is not zero: on the non-negative
  numbers here the correction never fires and the quotient is `n / 16`):
  * on the 512 × 512 tile, row `r` and column `c` lie in one graph iff `r / 16 = c / 16`;
  * on the 32 × 512 tile, column `c` belongs to graph `g` iff `g = c / 16`.
  Where a mask is set the body keeps the tiled operand — the graph's 16 columns repeated 32 times along
  the lanes, so column `c` reads column `c mod 16` — and elsewhere it writes zero.
  `bdOf` and `scOf` are those masked tiles as plain conditionals; `chain7` and `chain1` are the float
  operations that follow, as the body has them, with the masked tile a parameter.
-/
import proofs.«116657_g6493990551891_cont_9to1c4b_81_7_alg».proof.Proof.Gen.KernelIdeal.Skeleton
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.ValueIdx

variable {F : FTy → Type} [FloatOps F]

/-- The 512 × 512 tile kept on the diagonal blocks of 16 and zero elsewhere. -/
def bdOf (v4 : FVec F S512x512 .f32) : FVec F S512x512 .f32 :=
  fun i => if (i 0).val / 16 = (i 1).val / 16 then v4 i else Scalar.ofBits .f32 0x00000000#32

/-- The 32 × 512 tile whose row `g` keeps, in the 16 columns of graph `g`, row `g` of the 32 × 16 operand. -/
def scOf (v79 : FVec F S32x16 .f32) : FVec F S32x512 .f32 :=
  fun i => if (i 0).val = (i 1).val / 16 then
      v79 (ix2 (⟨(i 0).val, (i 0).isLt⟩ : Fin 32) (⟨(i 1).val % 16, Nat.mod_lt _ (by decide)⟩ : Fin 16))
    else Scalar.ofBits .f32 0x00000000#32

/-- The two hidden layers as the body computes them from the masked tile `bd`. -/
def chain7 (bd : FVec F S512x512 .f32) (v1 : FVec F S512x128 .f32) (v58 : Vec F S128x128 .f32) (v61 : Vec F S1x128 .f32)
    (v67 : Vec F S128x64 .f32) (v70 : Vec F S1x64 .f32) : FVec F S512x64 .f32 :=
  have cst_18 : FVec F S512x128 .f32 := constant S512x128 .f32 0x00000000#32
  have v59 : FVec F S512x128 .f32 := matmul dot_S512x128_S128x128_S512x128_1_0_0_1_n_n none v1 v58 cst_18
  have cst_19 : FVec F S512x128 .f32 := constant S512x128 .f32 0x00000000#32
  have v60 : FVec F S512x128 .f32 := matmul dot_S512x512_S512x128_S512x128_1_0_0_1_n_n none bd v59 cst_19
  have v62 : FVec F S1x128 .f32 := shapeCast S1x128 v61 shapeCasts_S1x128_S1x128
  have v63 : FVec F S512x128 .f32 := broadcastTo S512x128 v62 broadcasts_S1x128_S512x128
  have v64 : FVec F S512x128 .f32 := addf v60 v63
  have cst_22 : F .f32 := Scalar.ofBits .f32 0x00000000#32
  have v65 : FVec F S512x128 .f32 := broadcast S512x128 cst_22
  have v66 : FVec F S512x128 .f32 := maximumf v64 v65
  have cst_25 : FVec F S512x64 .f32 := constant S512x64 .f32 0x00000000#32
  have v68 : FVec F S512x64 .f32 := matmul dot_S512x128_S128x64_S512x64_1_0_0_1_n_n none v66 v67 cst_25
  have cst_26 : FVec F S512x64 .f32 := constant S512x64 .f32 0x00000000#32
  have v69 : FVec F S512x64 .f32 := matmul dot_S512x512_S512x64_S512x64_1_0_0_1_n_n none bd v68 cst_26
  have v71 : FVec F S1x64 .f32 := shapeCast S1x64 v70 shapeCasts_S1x64_S1x64
  have v72 : FVec F S512x64 .f32 := broadcastTo S512x64 v71 broadcasts_S1x64_S512x64
  have v73 : FVec F S512x64 .f32 := addf v69 v72
  have cst_29 : F .f32 := Scalar.ofBits .f32 0x00000000#32
  have v74 : FVec F S512x64 .f32 := broadcast S512x64 cst_29
  have v75 : FVec F S512x64 .f32 := maximumf v73 v74
  v75

/-- The last contraction, the output weights and the bias as the body computes them from the masked tile `sc`. -/
def chain1 (sc : FVec F S32x512 .f32) (v75 : FVec F S512x64 .f32) (v111 : Vec F S64x32 .f32) (v113 : Vec F S1x32 .f32) :
    FVec F S32x32 .f32 :=
  have cst_43 : FVec F S32x64 .f32 := constant S32x64 .f32 0x00000000#32
  have v110 : FVec F S32x64 .f32 := matmul dot_S32x512_S512x64_S32x64_1_0_0_1_n_n none sc v75 cst_43
  have cst_46 : FVec F S32x32 .f32 := constant S32x32 .f32 0x00000000#32
  have v112 : FVec F S32x32 .f32 := matmul dot_S32x64_S64x32_S32x32_1_0_0_1_n_n none v110 v111 cst_46
  have v114 : FVec F S1x32 .f32 := shapeCast S1x32 v113 shapeCasts_S1x32_S1x32
  have v115 : FVec F S32x32 .f32 := broadcastTo S32x32 v114 broadcasts_S1x32_S32x32
  have v116 : FVec F S32x32 .f32 := addf v112 v115
  v116

/-! ### The integer side at one index -/

/-- jnp's floor division by 16 on one 32-bit word, as the body spells it: the quotient toward zero, less one where
    the operand's sign differs from the divisor's and the remainder is not zero. -/
private def fdiv16 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

set_option maxRecDepth 100000 in
/-- On the row and column numbers of the tile, all below 512, the floor division is the natural quotient: a closed
    statement over 512 words. -/
private theorem fdiv16_ofNat : ∀ n : Fin 512, fdiv16 (BitVec.ofNat 32 n.val) = BitVec.ofNat 32 (n.val / 16) := by
  decide +kernel

/-- A select on the equality of two small numbers' words is the conditional on the numbers. -/
private theorem select_eq_ofNat {α : Type} (a b : Nat) (ha : a < 2 ^ 32) (hb : b < 2 ^ 32) (x y : α) :
    Scalar.select (IntOp.cmpi .eq (BitVec.ofNat 32 a) (BitVec.ofNat 32 b)) x y = if a = b then x else y := by
  have hiff : BitVec.ofNat 32 a = BitVec.ofNat 32 b → a = b := by
    intro h
    have := congrArg BitVec.toNat h
    rwa [BitVec.toNat_ofNat, BitVec.toNat_ofNat, Nat.mod_eq_of_lt ha, Nat.mod_eq_of_lt hb] at this
  show (if BitVec.ofBool (BitVec.ofNat 32 a == BitVec.ofNat 32 b) = 1#1 then x else y) = if a = b then x else y
  by_cases h : a = b
  · subst h
    rw [beq_self_eq_true, if_pos rfl, if_pos (by decide)]
  · have hne : (BitVec.ofNat 32 a == BitVec.ofNat 32 b) = false :=
      beq_eq_false_iff_ne.2 fun e => h (hiff e)
    rw [hne, if_neg h, if_neg (by decide)]

/-- The row's graph number on the 512 × 512 tile. -/
private theorem pay4_apply (i : S512x512.Idx) : k0_pay4 i = fdiv16 (BitVec.ofNat 32 (i 0).val) := by
  rw [← iota_single_apply .tc S512x512 32 0 iota_S512x512_d0_w32 i]
  rfl

/-- The body's 512 × 512 mask: the row's graph number against the column's. -/
private def mask7 : IVec S512x512 1 :=
  cmpi .eq k0_pay4
    (select
      (andi
        (cmpi .ne k0_pay6
          (broadcast S512x512 (Scalar.subi (Scalar.extui (Scalar.cmpi .sgt 16#32 0#32)) (Scalar.extui (Scalar.cmpi .slt 16#32 0#32)))))
        (cmpi .ne (remsi (iota .tc S512x512 32 [1] iota_S512x512_d1_w32) (broadcast S512x512 16#32)) (broadcast S512x512 0#32)))
      (subi k0_pay5 (broadcast S512x512 1#32))
      k0_pay5)

private theorem mask7_apply (i : S512x512.Idx) :
    mask7 i = IntOp.cmpi .eq (BitVec.ofNat 32 ((i 0).val / 16)) (BitVec.ofNat 32 ((i 1).val / 16)) := by
  rw [← fdiv16_ofNat (i 0), ← fdiv16_ofNat (i 1), ← pay4_apply i,
    ← iota_single_apply .tc S512x512 32 1 iota_S512x512_d1_w32 i]
  rfl

/-- The masked 512 × 512 tile is the diagonal-block tile. -/
private theorem masked7_eq (v4 : FVec F S512x512 .f32) :
    select mask7 v4 (broadcast S512x512 (Scalar.ofBits .f32 0x00000000#32 : F .f32)) = bdOf v4 := by
  funext i
  show Scalar.select (mask7 i) (v4 i) (Scalar.ofBits .f32 0x00000000#32) = _
  rw [mask7_apply i, select_eq_ofNat _ _ (by have := idx2_lt0 (n0 := 512) (n1 := 512) i; omega)
    (by have := idx2_lt1 (n0 := 512) (n1 := 512) i; omega)]
  rfl

/-- The flattened adjacency block: row `16 g + i` is row `i` of graph `g`. -/
private theorem flat3_apply (x1 : Vec F S32x16x16 .f32) (r : Fin 512) (k : Fin 16) :
    shapeCast S512x16 x1 shapeCasts_S32x16x16_S512x16 (ix2 r k)
      = x1 (ix3 (⟨r.val / 16, by have := r.isLt; omega⟩ : Fin 32) (⟨r.val % 16, by omega⟩ : Fin 16) k) :=
  shapeCast_apply x1 _ (ix2 r k) _ (by
    rw [Shape.rowMajor_val_three, Shape.rowMajor_val_two]
    show (r.val / 16 * 16 + r.val % 16) * 16 + k.val = r.val * 16 + k.val
    omega)

/-- Thirty-two copies of one 512 × 16 piece side by side: column `c` reads column `c mod 16` of the piece. -/
private theorem tile512_apply (p : FVec F S512x16 .f32) (r c : Fin 512) :
    concatenate S512x512 1 (List.ofFn fun _ : Fin 32 => (⟨S512x16, p⟩ : (s : Shape) × (s.Idx → F .f32)))
        concatenates_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x512_d1 (ix2 r c)
      = p (ix2 r (⟨c.val % 16, by omega⟩ : Fin 16)) :=
  concatenate_ofFn_apply (t := S512x512) (s₁ := S512x16) (1 : Fin 2) (fun _ : Fin 32 => p)
    concatenates_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x16_S512x512_d1
    rfl 16 rfl (ix2 r c) ⟨c.val / 16, by have := c.isLt; omega⟩ rfl (ix2 r ⟨c.val % 16, by omega⟩) rfl
    (fun b hb => match b, hb with | ⟨0, _⟩, _ => rfl | ⟨1, _⟩, hb => absurd rfl hb)

/-- Thirty-two copies of one 32 × 16 piece side by side: column `c` reads column `c mod 16` of the piece. -/
private theorem tile32_apply (p : FVec F S32x16 .f32) (g : Fin 32) (c : Fin 512) :
    concatenate S32x512 1 (List.ofFn fun _ : Fin 32 => (⟨S32x16, p⟩ : (s : Shape) × (s.Idx → F .f32)))
        concatenates_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x512_d1 (ix2 g c)
      = p (ix2 g (⟨c.val % 16, by omega⟩ : Fin 16)) :=
  concatenate_ofFn_apply (t := S32x512) (s₁ := S32x16) (1 : Fin 2) (fun _ : Fin 32 => p)
    concatenates_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x512_d1
    rfl 16 rfl (ix2 g c) ⟨c.val / 16, by have := c.isLt; omega⟩ rfl (ix2 g ⟨c.val % 16, by omega⟩) rfl
    (fun b hb => match b, hb with | ⟨0, _⟩, _ => rfl | ⟨1, _⟩, hb => absurd rfl hb)

/-- The body's 32 × 512 mask: the row number against the column's graph number. -/
private def mask1 : IVec S32x512 1 := fun i =>
  IntOp.cmpi .eq (iota .tc S32x512 32 [0] iota_S32x512_d0_w32 i) (fdiv16 (iota .tc S32x512 32 [1] iota_S32x512_d1_w32 i))

private theorem mask1_apply (g : Fin 32) (c : Fin 512) :
    mask1 (ix2 g c) = IntOp.cmpi .eq (BitVec.ofNat 32 g.val) (BitVec.ofNat 32 (c.val / 16)) := by
  unfold mask1
  rw [iota_single_apply .tc S32x512 32 0 iota_S32x512_d0_w32, iota_single_apply .tc S32x512 32 1 iota_S32x512_d1_w32]
  exact congrArg (IntOp.cmpi .eq (BitVec.ofNat 32 g.val)) (fdiv16_ofNat c)

/-- The masked 32 × 512 tile is the graph-selecting tile. -/
private theorem masked1_eq (p : FVec F S32x16 .f32) :
    select mask1 (concatenate S32x512 1 (List.ofFn fun _ : Fin 32 => (⟨S32x16, p⟩ : (s : Shape) × (s.Idx → F .f32)))
        concatenates_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x512_d1)
      (broadcast S32x512 (Scalar.ofBits .f32 0x00000000#32 : F .f32)) = scOf p := by
  funext i
  obtain ⟨g, c, rfl⟩ : ∃ (g : Fin 32) (c : Fin 512), i = ix2 g c := ⟨i 0, i 1, eq_ix2 i⟩
  show Scalar.select (mask1 (ix2 g c)) (concatenate S32x512 1 _ _ (ix2 g c)) (Scalar.ofBits .f32 0x00000000#32) = _
  rw [mask1_apply g c, tile32_apply p g c,
    select_eq_ofNat _ _ (by have := g.isLt; omega) (by have := c.isLt; omega)]
  rfl

/-- Rows `16 g + i` of the flattened feature block are node `i` of graph `g`. -/
theorem pay2_apply (x0 : Vec F S32x16x128 .f32) (r : Fin 512) (d : Fin 128) :
    k0_pay2 x0 (ix2 r d) = x0 (ix3 (⟨r.val / 16, by have := r.isLt; omega⟩ : Fin 32) (⟨r.val % 16, by omega⟩ : Fin 16) d) := by
  show shapeCast S512x128 x0 shapeCasts_S32x16x128_S512x128 (ix2 r d) = _
  exact shapeCast_apply x0 _ (ix2 r d) _ (by
    rw [Shape.rowMajor_val_three, Shape.rowMajor_val_two]
    show (r.val / 16 * 16 + r.val % 16) * 128 + d.val = r.val * 128 + d.val
    omega)

/-- The tiled adjacency rows: column `c` reads column `c mod 16` of row `r` of the flattened block. -/
theorem pay3_apply (x1 : Vec F S32x16x16 .f32) (r c : Fin 512) :
    k0_pay3 x1 (ix2 r c) = x1 (ix3 (⟨r.val / 16, by have := r.isLt; omega⟩ : Fin 32) (⟨r.val % 16, by omega⟩ : Fin 16)
      (⟨c.val % 16, by omega⟩ : Fin 16)) := by
  rw [← flat3_apply x1 r ⟨c.val % 16, by omega⟩]
  exact tile512_apply _ r c

/-- The hidden-layer payload at the body's own masks is the float chain over the diagonal-block tile. -/
theorem pay7_eq (v1 : FVec F S512x128 .f32) (v4 : FVec F S512x512 .f32) (v58 : Vec F S128x128 .f32) (v61 : Vec F S1x128 .f32)
    (v67 : Vec F S128x64 .f32) (v70 : Vec F S1x64 .f32) :
    k0_pay7 v1 v4 k0_pay4 (iota .tc S512x512 32 [1] iota_S512x512_d1_w32) 16#32 k0_pay5 k0_pay6
        (Scalar.extui (Scalar.cmpi .sgt 16#32 0#32)) v58 v61 v67 v70
      = chain7 (bdOf v4) v1 v58 v61 v67 v70 := by
  rw [← masked7_eq v4]
  rfl

/-- The output payload is the float chain over the graph-selecting tile of the scaled column sums. -/
theorem pay1_eq (v75 : FVec F S512x64 .f32) (v77 v78 : FVec F S32x16 .f32) (v111 : Vec F S64x32 .f32) (v113 : Vec F S1x32 .f32) :
    k0_pay1 v75 v77 v78 v111 v113 = chain1 (scOf (mulf v77 v78)) v75 v111 v113 := by
  rw [← masked1_eq (mulf v77 v78)]
  rfl

end Cert.KernelIdeal.KerValue

end
-- ==== Proof.KerBlock.lean ====
/-
  What one grid point writes back, read at an index: the network on graph `g` of the point's 32 graphs,
  the mean taken the first way.
-/
import proofs.«116657_g6493990551891_cont_9to1c4b_81_7_alg».proof.Proof.Gen.KernelIdeal.Frame
import proofs.«116657_g6493990551891_cont_9to1c4b_81_7_alg».proof.Proof.Spec
import proofs.«116657_g6493990551891_cont_9to1c4b_81_7_alg».proof.Proof.KerPieces
import Idealize.ShloMosaic.Lib.ValueIdx
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx

private theorem lhs_a_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
private theorem lhs_a_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
private theorem rhs_a_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
private theorem rhs_a_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The 512 × 128 by 128 × 128 product into a zero accumulator, entry by entry. -/
private theorem mm_a (A : FVec Ideal S512x128 .f32) (B : FVec Ideal S128x128 .f32) (r : Fin 512) (h : Fin 128) :
    matmul dot_S512x128_S128x128_S512x128_1_0_0_1_n_n none A B (constant S512x128 .f32 0x00000000#32) (ix2 r h)
      = ∑ k : Fin 128, A (ix2 r k) * B (ix2 k h) := by
  show FloatOps.matmul dot_S512x128_S128x128_S512x128_1_0_0_1_n_n none A B (constant S512x128 .f32 0x00000000#32) (ix2 r h) = _
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r h) ((contrEquiv1 dot_S512x128_S128x128_S512x128_1_0_0_1_n_n 128 rfl rfl).symm k) = ix2 r k := funext fun a => Fin.ext (by
    match a with
    | ⟨0, _⟩ => exact lhs_a_0 _ _
    | ⟨1, _⟩ => exact (lhs_a_1 _ _).trans hk)
  have er : dot_S512x128_S128x128_S512x128_1_0_0_1_n_n.rhsIdx (ix2 r h) ((contrEquiv1 dot_S512x128_S128x128_S512x128_1_0_0_1_n_n 128 rfl rfl).symm k) = ix2 k h := funext fun a => Fin.ext (by
    match a with
    | ⟨0, _⟩ => exact (rhs_a_0 _ _).trans hk
    | ⟨1, _⟩ => exact rhs_a_1 _ _)
  rw [el, er]

private theorem lhs_b_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
private theorem lhs_b_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
private theorem rhs_b_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
private theorem rhs_b_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The 512 × 512 by 512 × 128 product into a zero accumulator, entry by entry. -/
private theorem mm_b (A : FVec Ideal S512x512 .f32) (B : FVec Ideal S512x128 .f32) (r : Fin 512) (h : Fin 128) :
    matmul dot_S512x512_S512x128_S512x128_1_0_0_1_n_n none A B (constant S512x128 .f32 0x00000000#32) (ix2 r h)
      = ∑ k : Fin 512, A (ix2 r k) * B (ix2 k h) := by
  show FloatOps.matmul dot_S512x512_S512x128_S512x128_1_0_0_1_n_n none A B (constant S512x128 .f32 0x00000000#32) (ix2 r h) = _
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 r h) ((contrEquiv1 dot_S512x512_S512x128_S512x128_1_0_0_1_n_n 512 rfl rfl).symm k) = ix2 r k := funext fun a => Fin.ext (by
    match a with
    | ⟨0, _⟩ => exact lhs_b_0 _ _
    | ⟨1, _⟩ => exact (lhs_b_1 _ _).trans hk)
  have er : dot_S512x512_S512x128_S512x128_1_0_0_1_n_n.rhsIdx (ix2 r h) ((contrEquiv1 dot_S512x512_S512x128_S512x128_1_0_0_1_n_n 512 rfl rfl).symm k) = ix2 k h := funext fun a => Fin.ext (by
    match a with
    | ⟨0, _⟩ => exact (rhs_b_0 _ _).trans hk
    | ⟨1, _⟩ => exact rhs_b_1 _ _)
  rw [el, er]

private theorem lhs_c_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
private theorem lhs_c_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
private theorem rhs_c_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
private theorem rhs_c_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The 512 × 128 by 128 × 64 product into a zero accumulator, entry by entry. -/
private theorem mm_c (A : FVec Ideal S512x128 .f32) (B : FVec Ideal S128x64 .f32) (r : Fin 512) (h : Fin 64) :
    matmul dot_S512x128_S128x64_S512x64_1_0_0_1_n_n none A B (constant S512x64 .f32 0x00000000#32) (ix2 r h)
      = ∑ k : Fin 128, A (ix2 r k) * B (ix2 k h) := by
  show FloatOps.matmul dot_S512x128_S128x64_S512x64_1_0_0_1_n_n none A B (constant S512x64 .f32 0x00000000#32) (ix2 r h) = _
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 r h) ((contrEquiv1 dot_S512x128_S128x64_S512x64_1_0_0_1_n_n 128 rfl rfl).symm k) = ix2 r k := funext fun a => Fin.ext (by
    match a with
    | ⟨0, _⟩ => exact lhs_c_0 _ _
    | ⟨1, _⟩ => exact (lhs_c_1 _ _).trans hk)
  have er : dot_S512x128_S128x64_S512x64_1_0_0_1_n_n.rhsIdx (ix2 r h) ((contrEquiv1 dot_S512x128_S128x64_S512x64_1_0_0_1_n_n 128 rfl rfl).symm k) = ix2 k h := funext fun a => Fin.ext (by
    match a with
    | ⟨0, _⟩ => exact (rhs_c_0 _ _).trans hk
    | ⟨1, _⟩ => exact rhs_c_1 _ _)
  rw [el, er]

private theorem lhs_d_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
private theorem lhs_d_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
private theorem rhs_d_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
private theorem rhs_d_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The 512 × 512 by 512 × 64 product into a zero accumulator, entry by entry. -/
private theorem mm_d (A : FVec Ideal S512x512 .f32) (B : FVec Ideal S512x64 .f32) (r : Fin 512) (h : Fin 64) :
    matmul dot_S512x512_S512x64_S512x64_1_0_0_1_n_n none A B (constant S512x64 .f32 0x00000000#32) (ix2 r h)
      = ∑ k : Fin 512, A (ix2 r k) * B (ix2 k h) := by
  show FloatOps.matmul dot_S512x512_S512x64_S512x64_1_0_0_1_n_n none A B (constant S512x64 .f32 0x00000000#32) (ix2 r h) = _
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r h) ((contrEquiv1 dot_S512x512_S512x64_S512x64_1_0_0_1_n_n 512 rfl rfl).symm k) = ix2 r k := funext fun a => Fin.ext (by
    match a with
    | ⟨0, _⟩ => exact lhs_d_0 _ _
    | ⟨1, _⟩ => exact (lhs_d_1 _ _).trans hk)
  have er : dot_S512x512_S512x64_S512x64_1_0_0_1_n_n.rhsIdx (ix2 r h) ((contrEquiv1 dot_S512x512_S512x64_S512x64_1_0_0_1_n_n 512 rfl rfl).symm k) = ix2 k h := funext fun a => Fin.ext (by
    match a with
    | ⟨0, _⟩ => exact (rhs_d_0 _ _).trans hk
    | ⟨1, _⟩ => exact rhs_d_1 _ _)
  rw [el, er]

private theorem lhs_e_0 (i : S32x64.Idx) (q : dot_S32x512_S512x64_S32x64_1_0_0_1_n_n.contr.Idx) :
    (dot_S32x512_S512x64_S32x64_1_0_0_1_n_n.lhsIdx i q 0).val = (i 0).val := by
  unfold DotDims.lhsIdx
  rw [dif_neg (show ¬(0 : Fin S32x512.rank) ∈ dot_S32x512_S512x64_S32x64_1_0_0_1_n_n.lhsBatch by decide), dif_pos (show (0 : Fin S32x512.rank) ∈ dot_S32x512_S512x64_S32x64_1_0_0_1_n_n.lhsNonContracting by decide)]
  rfl
private theorem lhs_e_1 (i : S32x64.Idx) (q : dot_S32x512_S512x64_S32x64_1_0_0_1_n_n.contr.Idx) :
    (dot_S32x512_S512x64_S32x64_1_0_0_1_n_n.lhsIdx i q 1).val = (q ⟨0, by decide⟩).val :=
  dot_S32x512_S512x64_S32x64_1_0_0_1_n_n.lhsIdx_val_of_single rfl i q
private theorem rhs_e_0 (i : S32x64.Idx) (q : dot_S32x512_S512x64_S32x64_1_0_0_1_n_n.contr.Idx) :
    (dot_S32x512_S512x64_S32x64_1_0_0_1_n_n.rhsIdx i q 0).val = (q ⟨0, by decide⟩).val :=
  dot_S32x512_S512x64_S32x64_1_0_0_1_n_n.rhsIdx_val_of_single rfl i q
private theorem rhs_e_1 (i : S32x64.Idx) (q : dot_S32x512_S512x64_S32x64_1_0_0_1_n_n.contr.Idx) :
    (dot_S32x512_S512x64_S32x64_1_0_0_1_n_n.rhsIdx i q 1).val = (i 1).val := by
  unfold DotDims.rhsIdx
  rw [dif_neg (show ¬(1 : Fin S512x64.rank) ∈ dot_S32x512_S512x64_S32x64_1_0_0_1_n_n.rhsBatch by decide), dif_pos (show (1 : Fin S512x64.rank) ∈ dot_S32x512_S512x64_S32x64_1_0_0_1_n_n.rhsNonContracting by decide)]
  rfl

/-- The 32 × 512 by 512 × 64 product into a zero accumulator, entry by entry. -/
private theorem mm_e (A : FVec Ideal S32x512 .f32) (B : FVec Ideal S512x64 .f32) (r : Fin 32) (h : Fin 64) :
    matmul dot_S32x512_S512x64_S32x64_1_0_0_1_n_n none A B (constant S32x64 .f32 0x00000000#32) (ix2 r h)
      = ∑ k : Fin 512, A (ix2 r k) * B (ix2 k h) := by
  show FloatOps.matmul dot_S32x512_S512x64_S32x64_1_0_0_1_n_n none A B (constant S32x64 .f32 0x00000000#32) (ix2 r h) = _
  rw [Ideal.matmul_constant_zero_apply, ← Equiv.sum_comp (contrEquiv1 dot_S32x512_S512x64_S32x64_1_0_0_1_n_n 512 rfl rfl).symm]
  refine Finset.sum_congr rfl fun k _ => ?_
  have hk := contrEquiv1_symm_val dot_S32x512_S512x64_S32x64_1_0_0_1_n_n 512 rfl rfl k
  have el : dot_S32x512_S512x64_S32x64_1_0_0_1_n_n.lhsIdx (ix2 r h) ((contrEquiv1 dot_S32x512_S512x64_S32x64_1_0_0_1_n_n 512 rfl rfl).symm k) = ix2 r k := funext fun a => Fin.ext (by
    match a with
    | ⟨0, _⟩ => exact lhs_e_0 _ _
    | ⟨1, _⟩ => exact (lhs_e_1 _ _).trans hk)
  have er : dot_S32x512_S512x64_S32x64_1_0_0_1_n_n.rhsIdx (ix2 r h) ((contrEquiv1 dot_S32x512_S512x64_S32x64_1_0_0_1_n_n 512 rfl rfl).symm k) = ix2 k h := funext fun a => Fin.ext (by
    match a with
    | ⟨0, _⟩ => exact (rhs_e_0 _ _).trans hk
    | ⟨1, _⟩ => exact rhs_e_1 _ _)
  rw [el, er]

private theorem lhs_f_0 (i : S32x32.Idx) (q : dot_S32x64_S64x32_S32x32_1_0_0_1_n_n.contr.Idx) :
    (dot_S32x64_S64x32_S32x32_1_0_0_1_n_n.lhsIdx i q 0).val = (i 0).val := by
  unfold DotDims.lhsIdx
  rw [dif_neg (show ¬(0 : Fin S32x64.rank) ∈ dot_S32x64_S64x32_S32x32_1_0_0_1_n_n.lhsBatch by decide), dif_pos (show (0 : Fin S32x64.rank) ∈ dot_S32x64_S64x32_S32x32_1_0_0_1_n_n.lhsNonContracting by decide)]
  rfl
private theorem lhs_f_1 (i : S32x32.Idx) (q : dot_S32x64_S64x32_S32x32_1_0_0_1_n_n.contr.Idx) :
    (dot_S32x64_S64x32_S32x32_1_0_0_1_n_n.lhsIdx i q 1).val = (q ⟨0, by decide⟩).val :=
  dot_S32x64_S64x32_S32x32_1_0_0_1_n_n.lhsIdx_val_of_single rfl i q
private theorem rhs_f_0 (i : S32x32.Idx) (q : dot_S32x64_S64x32_S32x32_1_0_0_1_n_n.contr.Idx) :
    (dot_S32x64_S64x32_S32x32_1_0_0_1_n_n.rhsIdx i q 0).val = (q ⟨0, by decide⟩).val :=
  dot_S32x64_S64x32_S32x32_1_0_0_1_n_n.rhsIdx_val_of_single rfl i q
private theorem rhs_f_1 (i : S32x32.Idx) (q : dot_S32x64_S64x32_S32x32_1_0_0_1_n_n.contr.Idx) :
    (dot_S32x64_S64x32_S32x32_1_0_0_1_n_n.rhsIdx i q 1).val = (i 1).val := by
  unfold DotDims.rhsIdx
  rw [dif_neg (show ¬(1 : Fin S64x32.rank) ∈ dot_S32x64_S64x32_S32x32_1_0_0_1_n_n.rhsBatch by decide), dif_pos (show (1 : Fin S64x32.rank) ∈ dot_S32x64_S64x32_S32x32_1_0_0_1_n_n.rhsNonContracting by decide)]
  rfl

/-- The 32 × 64 by 64 × 32 product into a zero accumulator, entry by entry. -/
private theorem mm_f (A : FVec Ideal S32x64 .f32) (B : FVec Ideal S64x32 .f32) (r : Fin 32) (h : Fin 32) :
    matmul dot_S32x64_S64x32_S32x32_1_0_0_1_n_n none A B (constant S32x32 .f32 0x00000000#32) (ix2 r h)
      = ∑ k : Fin 64, A (ix2 r k) * B (ix2 k h) := by
  show FloatOps.matmul dot_S32x64_S64x32_S32x32_1_0_0_1_n_n none A B (constant S32x32 .f32 0x00000000#32) (ix2 r h) = _
  rw [Ideal.matmul_constant_zero_apply, ← Equiv.sum_comp (contrEquiv1 dot_S32x64_S64x32_S32x32_1_0_0_1_n_n 64 rfl rfl).symm]
  refine Finset.sum_congr rfl fun k _ => ?_
  have hk := contrEquiv1_symm_val dot_S32x64_S64x32_S32x32_1_0_0_1_n_n 64 rfl rfl k
  have el : dot_S32x64_S64x32_S32x32_1_0_0_1_n_n.lhsIdx (ix2 r h) ((contrEquiv1 dot_S32x64_S64x32_S32x32_1_0_0_1_n_n 64 rfl rfl).symm k) = ix2 r k := funext fun a => Fin.ext (by
    match a with
    | ⟨0, _⟩ => exact lhs_f_0 _ _
    | ⟨1, _⟩ => exact (lhs_f_1 _ _).trans hk)
  have er : dot_S32x64_S64x32_S32x32_1_0_0_1_n_n.rhsIdx (ix2 r h) ((contrEquiv1 dot_S32x64_S64x32_S32x32_1_0_0_1_n_n 64 rfl rfl).symm k) = ix2 k h := funext fun a => Fin.ext (by
    match a with
    | ⟨0, _⟩ => exact (rhs_f_0 _ _).trans hk
    | ⟨1, _⟩ => exact rhs_f_1 _ _)
  rw [el, er]

/-- The bias row repeated down the 512 rows: entry `(r, h)` is entry `h` of the single row. -/
private theorem bias128 (v : Vec Ideal S1x128 .f32) (r : Fin 512) (h : Fin 128) :
    broadcastTo S512x128 (shapeCast S1x128 v shapeCasts_S1x128_S1x128) broadcasts_S1x128_S512x128 (ix2 r h)
      = v (ix2 (0 : Fin 1) h) := by
  rw [shapeCast_self]
  refine broadcastTo_apply _ _ _ _ (fun a => ?_)
  match a with
  | ⟨0, _⟩ => rfl
  | ⟨1, _⟩ => rfl

/-- The bias row repeated down the 512 rows: entry `(r, h)` is entry `h` of the single row. -/
private theorem bias64 (v : Vec Ideal S1x64 .f32) (r : Fin 512) (h : Fin 64) :
    broadcastTo S512x64 (shapeCast S1x64 v shapeCasts_S1x64_S1x64) broadcasts_S1x64_S512x64 (ix2 r h)
      = v (ix2 (0 : Fin 1) h) := by
  rw [shapeCast_self]
  refine broadcastTo_apply _ _ _ _ (fun a => ?_)
  match a with
  | ⟨0, _⟩ => rfl
  | ⟨1, _⟩ => rfl

/-- The bias row repeated down the 32 rows: entry `(r, h)` is entry `h` of the single row. -/
private theorem bias32 (v : Vec Ideal S1x32 .f32) (r : Fin 32) (h : Fin 32) :
    broadcastTo S32x32 (shapeCast S1x32 v shapeCasts_S1x32_S1x32) broadcasts_S1x32_S32x32 (ix2 r h)
      = v (ix2 (0 : Fin 1) h) := by
  rw [shapeCast_self]
  refine broadcastTo_apply _ _ _ _ (fun a => ?_)
  match a with
  | ⟨0, _⟩ => rfl
  | ⟨1, _⟩ => rfl

/-- The column sums of graph `g`'s adjacency block: entry `(g, j)` adds column `j` over the 16 rows. -/
private theorem pay8_apply (x1 : Vec Ideal S32x16x16 .f32) (g : Fin 32) (j : Fin 16) :
    k0_pay8 (F := Ideal) x1 (ix2 g j) = ∑ i : Fin 16, x1 (ix3 g i j) := by
  unfold k0_pay8
  refine (Ideal.multiReduction_add_single (φ := .f32) (s := S32x16x16) (t := S32x16) (a := 1) x1 0x00000000#32
    reduces_S32x16x16_S32x16 (.inl rfl) rfl (ix2 g j)).trans ?_
  refine Finset.sum_congr rfl fun i _ => congrArg x1 ?_
  funext a
  apply Fin.ext
  match a with
  | ⟨0, _⟩ => rfl
  | ⟨1, _⟩ => rfl
  | ⟨2, _⟩ => rfl

/-- The scale is the same word at every entry. -/
private theorem pay9_apply (i : S32x16.Idx) : k0_pay9 (F := Ideal) i = Ideal.ofBits .f32 0x3D800000#32 := rfl

/-- Row `i` of graph `g` among the 512 flattened rows. -/
private def row (g : Fin 32) (i : Fin 16) : Fin 512 :=
  ⟨g.val * 16 + i.val, by have := g.isLt; have := i.isLt; omega⟩

private theorem row_div (g : Fin 32) (i : Fin 16) : (row g i).val / 16 = g.val := by
  have := i.isLt
  show (g.val * 16 + i.val) / 16 = g.val
  omega

private theorem row_mod (g : Fin 32) (i : Fin 16) : (row g i).val % 16 = i.val := by
  have := i.isLt
  show (g.val * 16 + i.val) % 16 = i.val
  omega

/-- Row `16 g + j` of the flattened feature block is node `j` of graph `g`. -/
private theorem pay2_row (x0 : Vec Ideal S32x16x128 .f32) (g : Fin 32) (j : Fin 16) (d : Fin 128) :
    k0_pay2 (F := Ideal) x0 (ix2 (row g j) d) = x0 (ix3 g j d) := by
  rw [pay2_apply]
  refine congrArg x0 (funext fun a => Fin.ext ?_)
  match a with
  | ⟨0, _⟩ => exact row_div g j
  | ⟨1, _⟩ => exact row_mod g j
  | ⟨2, _⟩ => rfl

/-- Inside graph `g`'s diagonal block the tiled adjacency rows read the graph's own adjacency matrix. -/
private theorem pay3_row (x1 : Vec Ideal S32x16x16 .f32) (g : Fin 32) (i j : Fin 16) :
    k0_pay3 (F := Ideal) x1 (ix2 (row g i) (row g j)) = x1 (ix3 g i j) := by
  rw [pay3_apply]
  refine congrArg x1 (funext fun a => Fin.ext ?_)
  match a with
  | ⟨0, _⟩ => exact row_div g i
  | ⟨1, _⟩ => exact row_mod g i
  | ⟨2, _⟩ => exact row_mod g j

/-- Row `16 g + i` of the masked 512 × 512 tile against a column: the lanes outside graph `g` carry zero, and
    zero times anything is zero, so what remains is the mix over the graph's 16 nodes. -/
private theorem bd_sum (x1 : Vec Ideal S32x16x16 .f32) (Y : Fin 512 → EReal) (g : Fin 32) (i : Fin 16) :
    ∑ c : Fin 512, bdOf (F := Ideal) (k0_pay3 x1) (ix2 (row g i) c) * Y c
      = ∑ j : Fin 16, x1 (ix3 g i j) * Y (row g j) := by
  rw [Cert.Gcn.sum_eq_sum_block _ g.val (by have := g.isLt; omega)]
  · refine Finset.sum_congr rfl fun j _ => ?_
    show (if (row g i).val / 16 = (row g j).val / 16 then k0_pay3 (F := Ideal) x1 (ix2 (row g i) (row g j))
      else Scalar.ofBits .f32 0x00000000#32) * Y (row g j) = _
    rw [if_pos (by rw [row_div, row_div]), pay3_row]
  · intro c hc
    show (if (row g i).val / 16 = c.val / 16 then k0_pay3 (F := Ideal) x1 (ix2 (row g i) c)
      else Scalar.ofBits .f32 0x00000000#32) * Y c = 0
    rw [if_neg (by rw [row_div]; exact fun h => hc h.symm)]
    show Ideal.ofBits .f32 0x00000000#32 * Y c = 0
    rw [Ideal.ofBits_zero_f32, zero_mul]

/-- Row `g` of the graph-selecting 32 × 512 tile against a column: only graph `g`'s 16 lanes contribute. -/
private theorem sc_sum (s : FVec Ideal S32x16 .f32) (Y : Fin 512 → EReal) (g : Fin 32) :
    ∑ c : Fin 512, scOf (F := Ideal) s (ix2 g c) * Y c = ∑ j : Fin 16, s (ix2 g j) * Y (row g j) := by
  rw [Cert.Gcn.sum_eq_sum_block _ g.val (by have := g.isLt; omega)]
  · refine Finset.sum_congr rfl fun j _ => ?_
    show (if g.val = (row g j).val / 16 then
        s (ix2 (⟨g.val, g.isLt⟩ : Fin 32) (⟨(row g j).val % 16, Nat.mod_lt _ (by decide)⟩ : Fin 16))
      else Scalar.ofBits .f32 0x00000000#32) * Y (row g j) = _
    rw [if_pos (row_div g j).symm]
    refine congrArg (· * Y (row g j)) (congrArg s (funext fun a => Fin.ext ?_))
    match a with
    | ⟨0, _⟩ => rfl
    | ⟨1, _⟩ => exact row_mod g j
  · intro c hc
    show (if g.val = c.val / 16 then
        s (ix2 (⟨g.val, g.isLt⟩ : Fin 32) (⟨c.val % 16, Nat.mod_lt _ (by decide)⟩ : Fin 16))
      else Scalar.ofBits .f32 0x00000000#32) * Y c = 0
    rw [if_neg (fun h => hc h.symm)]
    show Ideal.ofBits .f32 0x00000000#32 * Y c = 0
    rw [Ideal.ofBits_zero_f32, zero_mul]

/-- The first hidden layer as the body computes it from the masked tile. -/
private def lay1 (bd : FVec Ideal S512x512 .f32) (v1 : FVec Ideal S512x128 .f32) (v58 : FVec Ideal S128x128 .f32)
    (v61 : Vec Ideal S1x128 .f32) : FVec Ideal S512x128 .f32 :=
  maximumf
    (addf
      (matmul dot_S512x512_S512x128_S512x128_1_0_0_1_n_n none bd
        (matmul dot_S512x128_S128x128_S512x128_1_0_0_1_n_n none v1 v58 (constant S512x128 .f32 0x00000000#32))
        (constant S512x128 .f32 0x00000000#32))
      (broadcastTo S512x128 (shapeCast S1x128 v61 shapeCasts_S1x128_S1x128) broadcasts_S1x128_S512x128))
    (broadcast S512x128 (Scalar.ofBits .f32 0x00000000#32))

/-- The second hidden layer as the body computes it from the masked tile and the first layer's output. -/
private def lay2 (bd : FVec Ideal S512x512 .f32) (u : FVec Ideal S512x128 .f32) (v67 : FVec Ideal S128x64 .f32)
    (v70 : Vec Ideal S1x64 .f32) : FVec Ideal S512x64 .f32 :=
  maximumf
    (addf
      (matmul dot_S512x512_S512x64_S512x64_1_0_0_1_n_n none bd
        (matmul dot_S512x128_S128x64_S512x64_1_0_0_1_n_n none u v67 (constant S512x64 .f32 0x00000000#32))
        (constant S512x64 .f32 0x00000000#32))
      (broadcastTo S512x64 (shapeCast S1x64 v70 shapeCasts_S1x64_S1x64) broadcasts_S1x64_S512x64))
    (broadcast S512x64 (Scalar.ofBits .f32 0x00000000#32))

private theorem chain7_eq (bd : FVec Ideal S512x512 .f32) (v1 : FVec Ideal S512x128 .f32) (v58 : Vec Ideal S128x128 .f32)
    (v61 : Vec Ideal S1x128 .f32) (v67 : Vec Ideal S128x64 .f32) (v70 : Vec Ideal S1x64 .f32) :
    chain7 bd v1 v58 v61 v67 v70 = lay2 bd (lay1 bd v1 v58 v61) v67 v70 := rfl

/-- Entry `(r, h)` of the first layer: tile row against the transformed features, bias, rectifier. -/
private theorem lay1_apply (bd : FVec Ideal S512x512 .f32) (v1 : FVec Ideal S512x128 .f32) (v58 : FVec Ideal S128x128 .f32)
    (v61 : Vec Ideal S1x128 .f32) (r : Fin 512) (h : Fin 128) :
    lay1 bd v1 v58 v61 (ix2 r h)
      = max (∑ c : Fin 512, bd (ix2 r c) * (∑ d : Fin 128, v1 (ix2 c d) * v58 (ix2 d h)) + v61 (ix2 (0 : Fin 1) h)) 0 := by
  unfold lay1
  rw [maximumf_apply, addf_apply, mm_b, bias128, broadcast_apply]
  simp only [mm_a]
  show max _ (Ideal.ofBits .f32 0x00000000#32) = _
  rw [Ideal.ofBits_zero_f32]

/-- Entry `(r, k)` of the second layer. -/
private theorem lay2_apply (bd : FVec Ideal S512x512 .f32) (u : FVec Ideal S512x128 .f32) (v67 : FVec Ideal S128x64 .f32)
    (v70 : Vec Ideal S1x64 .f32) (r : Fin 512) (k : Fin 64) :
    lay2 bd u v67 v70 (ix2 r k)
      = max (∑ c : Fin 512, bd (ix2 r c) * (∑ h : Fin 128, u (ix2 c h) * v67 (ix2 h k)) + v70 (ix2 (0 : Fin 1) k)) 0 := by
  unfold lay2
  rw [maximumf_apply, addf_apply, mm_d, bias64, broadcast_apply]
  simp only [mm_c]
  show max _ (Ideal.ofBits .f32 0x00000000#32) = _
  rw [Ideal.ofBits_zero_f32]

/-- Entry `(g, o)` of the output chain: selector row against the hidden features, output weights, bias. -/
private theorem chain1_apply (sc : FVec Ideal S32x512 .f32) (v75 : FVec Ideal S512x64 .f32) (v111 : FVec Ideal S64x32 .f32)
    (v113 : Vec Ideal S1x32 .f32) (g o : Fin 32) :
    chain1 sc v75 v111 v113 (ix2 g o)
      = ∑ k : Fin 64, (∑ c : Fin 512, sc (ix2 g c) * v75 (ix2 c k)) * v111 (ix2 k o) + v113 (ix2 (0 : Fin 1) o) := by
  show addf
      (matmul dot_S32x64_S64x32_S32x32_1_0_0_1_n_n none
        (matmul dot_S32x512_S512x64_S32x64_1_0_0_1_n_n none sc v75 (constant S32x64 .f32 0x00000000#32)) v111
        (constant S32x32 .f32 0x00000000#32))
      (broadcastTo S32x32 (shapeCast S1x32 v113 shapeCasts_S1x32_S1x32) broadcasts_S1x32_S32x32) (ix2 g o) = _
  rw [addf_apply, mm_f, bias32]
  simp only [mm_e]

/-- Rows `16 g + j` of the first layer's output are node `j` of graph `g` after one layer. -/
private theorem lay1_row (x0 : Vec Ideal S32x16x128 .f32) (x1 : Vec Ideal S32x16x16 .f32) (x2 : Vec Ideal S128x128 .f32)
    (x3 : Vec Ideal S1x128 .f32) (g : Fin 32) (j : Fin 16) (h : Fin 128) :
    lay1 (bdOf (k0_pay3 x1)) (k0_pay2 x0) x2 x3 (ix2 (row g j) h)
      = Cert.Gcn.layer (fun a b => x1 (ix3 g a b)) (fun j d => x0 (ix3 g j d)) (fun d h => x2 (ix2 d h))
          (fun h => x3 (ix2 (0 : Fin 1) h)) j h := by
  rw [lay1_apply, bd_sum x1 (fun c => ∑ d : Fin 128, k0_pay2 (F := Ideal) x0 (ix2 c d) * x2 (ix2 d h)) g j]
  simp only [pay2_row]
  rfl

/-- Rows `16 g + i` of the hidden-layer chain are node `i` of graph `g`'s hidden features. -/
private theorem chain7_row (x0 : Vec Ideal S32x16x128 .f32) (x1 : Vec Ideal S32x16x16 .f32) (x2 : Vec Ideal S128x128 .f32)
    (x3 : Vec Ideal S1x128 .f32) (x4 : Vec Ideal S128x64 .f32) (x5 : Vec Ideal S1x64 .f32) (g : Fin 32) (i : Fin 16) (k : Fin 64) :
    chain7 (bdOf (k0_pay3 x1)) (k0_pay2 x0) x2 x3 x4 x5 (ix2 (row g i) k)
      = Cert.Gcn.hidden (fun a b => x1 (ix3 g a b)) (fun j d => x0 (ix3 g j d)) (fun d h => x2 (ix2 d h))
          (fun h => x3 (ix2 (0 : Fin 1) h)) (fun h k => x4 (ix2 h k)) (fun k => x5 (ix2 (0 : Fin 1) k)) i k := by
  rw [chain7_eq, lay2_apply,
    bd_sum x1 (fun c => ∑ h : Fin 128, lay1 (bdOf (k0_pay3 x1)) (k0_pay2 x0) x2 x3 (ix2 c h) * x4 (ix2 h k)) g i]
  simp only [lay1_row]
  rfl

private theorem hz2 : (![0, 0] : Fin 2 → Nat) = fun _ => 0 := funext fun a => by fin_cases a <;> rfl
private theorem hz3 : (![0, 0, 0] : Fin 3 → Nat) = fun _ => 0 := funext fun a => by fin_cases a <;> rfl

/-- Entry `(g, o)` of the output block: each product with a masked tile is a sum over 512 lanes whose terms
    vanish outside graph `g`'s 16 (zero times anything is zero), so it is the mix over that graph's nodes;
    rows `16 g + j` of the flattened blocks are node `j` of graph `g`; the biases are the single rows of
    their 1 × n blocks. -/
theorem block_apply (x0 : Vec Ideal S32x16x128 .f32) (x1 : Vec Ideal S32x16x16 .f32) (x2 : Vec Ideal S128x128 .f32)
    (x3 : Vec Ideal S1x128 .f32) (x4 : Vec Ideal S128x64 .f32) (x5 : Vec Ideal S1x64 .f32) (x6 : Vec Ideal S64x32 .f32)
    (x7 : Vec Ideal S1x32 .f32) (g o : Fin 32) :
    out0_8 (F := Ideal) x0 x1 x2 x3 x4 x5 x6 x7 (ix2 g o) =
      Cert.Gcn.gcnK (fun a b => x1 (ix3 g a b)) (fun j d => x0 (ix3 g j d)) (fun d h => x2 (ix2 d h))
        (fun h => x3 (ix2 (0 : Fin 1) h)) (fun h k => x4 (ix2 h k)) (fun k => x5 (ix2 (0 : Fin 1) k))
        (fun k o' => x6 (ix2 k o')) (fun o' => x7 (ix2 (0 : Fin 1) o')) o := by
  unfold out0_8
  rw [View.canon_unit_zero hz2]
  simp only [View.ld_unit_zero (S := S32x16x128) hz3, View.ld_unit_zero (S := S32x16x16) hz3,
    View.ld_unit_zero (S := S128x128) hz2, View.ld_unit_zero (S := S1x128) hz2, View.ld_unit_zero (S := S128x64) hz2,
    View.ld_unit_zero (S := S1x64) hz2, View.ld_unit_zero (S := S64x32) hz2, View.ld_unit_zero (S := S1x32) hz2]
  rw [pay1_eq, pay7_eq, chain1_apply]
  unfold Cert.Gcn.gcnK Cert.Gcn.meanK
  refine congrArg (· + x7 (ix2 (0 : Fin 1) o)) (Finset.sum_congr rfl fun k _ => ?_)
  refine congrArg (· * x6 (ix2 k o)) ?_
  rw [sc_sum (mulf (k0_pay8 x1) k0_pay9)
    (fun c => chain7 (bdOf (k0_pay3 x1)) (k0_pay2 x0) x2 x3 x4 x5 (ix2 c k)) g]
  refine Finset.sum_congr rfl fun j _ => ?_
  rw [chain7_row, mulf_apply, pay8_apply, pay9_apply]

end Cert.KernelIdeal.KerValue

end
-- ==== Proof.KerArray.lean ====
/-
  The kernel's result array.

  The call runs over 16 grid points; point `t` receives graphs `32 t … 32 t + 31`: rows `32 t + g` of the
  feature and adjacency arrays are row `g` of its blocks, the weights come whole, and each bias comes
  as the single row of a 1 × n array the host reshaped it into before the call. What the point writes
  back is rows `32 t … 32 t + 31` of the 512 × 32 output, and entry `(g, o)` of that block is the network
  on graph `32 t + g`. The 16 blocks tile the output, so the output array is, entry by entry, the
  network on the entry's graph; the host's last reshape to 512 × 32 × 1 × 1 keeps the first two
  coordinates.
-/
import proofs.«116657_g6493990551891_cont_9to1c4b_81_7_alg».proof.Proof.Gen.KernelIdeal.Frame
import proofs.«116657_g6493990551891_cont_9to1c4b_81_7_alg».proof.Proof.Spec
import proofs.«116657_g6493990551891_cont_9to1c4b_81_7_alg».proof.Proof.KerBlock
import Idealize.ShloMosaic.Lib.ValueIdx
import Idealize.ShloMosaic.Lib.Pipeline.Value
import Idealize.ShloMosaic.Lib.StableHlo.Run

noncomputable section

set_option maxRecDepth 16384

namespace Cert.KernelIdeal.KerValue

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The network on graph `b` of the argument arrays. -/
def net (c : Dev nD) (b : Fin 512) : Fin 32 → EReal :=
  Cert.Gcn.gcnK
    (fun i j => (m ((c : Thread nD τ).loc main_arg1) : S512x16x16.Idx → EReal) (ix3 b i j))
    (fun j d => (m ((c : Thread nD τ).loc main_arg0) : S512x16x128.Idx → EReal) (ix3 b j d))
    (fun d h => (m ((c : Thread nD τ).loc main_arg2) : S128x128.Idx → EReal) (ix2 d h))
    (fun h => (m ((c : Thread nD τ).loc main_arg3) : S128.Idx → EReal) (ix1 h))
    (fun h k => (m ((c : Thread nD τ).loc main_arg4) : S128x64.Idx → EReal) (ix2 h k))
    (fun k => (m ((c : Thread nD τ).loc main_arg5) : S64.Idx → EReal) (ix1 k))
    (fun k o => (m ((c : Thread nD τ).loc main_arg6) : S64x32.Idx → EReal) (ix2 k o))
    (fun o => (m ((c : Thread nD τ).loc main_arg7) : S32.Idx → EReal) (ix1 o))

/-- The call's 512 × 32 output as one function of the arguments. -/
def outArr (c : Dev nD) : S512x32.Idx → EReal :=
  fun i => net m c ⟨(i 0).val, (i 0).isLt⟩ ⟨(i 1).val, (i 1).isLt⟩

/-! ## The biases as the call finds them -/

theorem V_main_v0 (c : Dev nD) :
    (V m c main_v0 : S1x128.Idx → EReal) = shapeCast S1x128 (m ((c : Thread nD τ).loc main_arg3)) shapeCasts_S128_S1x128 := by
  show StableHlo.after hostOps0 (fun b => m (c, b)) (Proc.devRef .tc main_v0) = _
  after_results
  rfl

theorem V_main_v1 (c : Dev nD) :
    (V m c main_v1 : S1x64.Idx → EReal) = shapeCast S1x64 (m ((c : Thread nD τ).loc main_arg5)) shapeCasts_S64_S1x64 := by
  show StableHlo.after hostOps0 (fun b => m (c, b)) (Proc.devRef .tc main_v1) = _
  after_results
  rfl

theorem V_main_v2 (c : Dev nD) :
    (V m c main_v2 : S1x32.Idx → EReal) = shapeCast S1x32 (m ((c : Thread nD τ).loc main_arg7)) shapeCasts_S32_S1x32 := by
  show StableHlo.after hostOps0 (fun b => m (c, b)) (Proc.devRef .tc main_v2) = _
  after_results
  rfl

/-! ## The blocks a grid point receives -/

theorem lt16 (t : Fin cfg0.N) : t.val < 16 := lt_of_lt_of_eq t.isLt N_0

/-- The printed index maps over the grid: the two batched inputs and the output move with the point along their
    first axis; every other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The blocks at point `t`, at their literal types. -/
abbrev blkX (c : Dev nD) (t : Fin cfg0.N) : Vec Ideal S32x16x128 .f32 := iblk m c 0 t
abbrev blkA (c : Dev nD) (t : Fin cfg0.N) : Vec Ideal S32x16x16 .f32 := iblk m c 1 t
abbrev blkW1 (c : Dev nD) (t : Fin cfg0.N) : Vec Ideal S128x128 .f32 := iblk m c 2 t
abbrev blkB1 (c : Dev nD) (t : Fin cfg0.N) : Vec Ideal S1x128 .f32 := iblk m c 3 t
abbrev blkW2 (c : Dev nD) (t : Fin cfg0.N) : Vec Ideal S128x64 .f32 := iblk m c 4 t
abbrev blkB2 (c : Dev nD) (t : Fin cfg0.N) : Vec Ideal S1x64 .f32 := iblk m c 5 t
abbrev blkW3 (c : Dev nD) (t : Fin cfg0.N) : Vec Ideal S64x32 .f32 := iblk m c 6 t
abbrev blkB3 (c : Dev nD) (t : Fin cfg0.N) : Vec Ideal S1x32 .f32 := iblk m c 7 t

theorem blkX_apply (c : Dev nD) (t : Fin cfg0.N) (g : Fin 32) (j : Fin 16) (d : Fin 128) :
    blkX m c t (ix3 g j d) = (m ((c : Thread nD τ).loc main_arg0) : S512x16x128.Idx → EReal)
      (ix3 (⟨32 * t.val + g.val, by have := lt16 t; have := g.isLt; omega⟩ : Fin 512) j d) := by
  obtain ⟨e0, e1, e2, -⟩ := idx_facts t
  show V m c main_arg0 (((cfg0.win 0).blk t).view.emb (ix3 g j d)) = _
  rw [V_main_arg0]
  refine congrArg _ (funext fun a => Fin.ext ?_)
  match a with
  | ⟨0, _⟩ => show win0_0.index t (0 : Fin 3) * 32 + 1 * g.val = 32 * t.val + g.val; omega
  | ⟨1, _⟩ => show win0_0.index t (1 : Fin 3) * 16 + 1 * j.val = j.val; omega
  | ⟨2, _⟩ => show win0_0.index t (2 : Fin 3) * 128 + 1 * d.val = d.val; omega

theorem blkA_apply (c : Dev nD) (t : Fin cfg0.N) (g : Fin 32) (i j : Fin 16) :
    blkA m c t (ix3 g i j) = (m ((c : Thread nD τ).loc main_arg1) : S512x16x16.Idx → EReal)
      (ix3 (⟨32 * t.val + g.val, by have := lt16 t; have := g.isLt; omega⟩ : Fin 512) i j) := by
  obtain ⟨-, -, -, e0, e1, e2, -⟩ := idx_facts t
  show V m c main_arg1 (((cfg0.win 1).blk t).view.emb (ix3 g i j)) = _
  rw [V_main_arg1]
  refine congrArg _ (funext fun a => Fin.ext ?_)
  match a with
  | ⟨0, _⟩ => show win0_1.index t (0 : Fin 3) * 32 + 1 * g.val = 32 * t.val + g.val; omega
  | ⟨1, _⟩ => show win0_1.index t (1 : Fin 3) * 16 + 1 * i.val = i.val; omega
  | ⟨2, _⟩ => show win0_1.index t (2 : Fin 3) * 16 + 1 * j.val = j.val; omega

theorem blkW1_apply (c : Dev nD) (t : Fin cfg0.N) (d h : Fin 128) :
    blkW1 m c t (ix2 d h) = (m ((c : Thread nD τ).loc main_arg2) : S128x128.Idx → EReal) (ix2 d h) := by
  obtain ⟨-, -, -, -, -, -, e0, e1, -⟩ := idx_facts t
  show V m c main_arg2 (((cfg0.win 2).blk t).view.emb (ix2 d h)) = _
  rw [V_main_arg2]
  refine congrArg _ (funext fun a => Fin.ext ?_)
  match a with
  | ⟨0, _⟩ => show win0_2.index t (0 : Fin 2) * 128 + 1 * d.val = d.val; omega
  | ⟨1, _⟩ => show win0_2.index t (1 : Fin 2) * 128 + 1 * h.val = h.val; omega

theorem blkW2_apply (c : Dev nD) (t : Fin cfg0.N) (h : Fin 128) (k : Fin 64) :
    blkW2 m c t (ix2 h k) = (m ((c : Thread nD τ).loc main_arg4) : S128x64.Idx → EReal) (ix2 h k) := by
  obtain ⟨-, -, -, -, -, -, -, -, -, -, e0, e1, -⟩ := idx_facts t
  show V m c main_arg4 (((cfg0.win 4).blk t).view.emb (ix2 h k)) = _
  rw [V_main_arg4]
  refine congrArg _ (funext fun a => Fin.ext ?_)
  match a with
  | ⟨0, _⟩ => show win0_4.index t (0 : Fin 2) * 128 + 1 * h.val = h.val; omega
  | ⟨1, _⟩ => show win0_4.index t (1 : Fin 2) * 64 + 1 * k.val = k.val; omega

theorem blkW3_apply (c : Dev nD) (t : Fin cfg0.N) (k : Fin 64) (o : Fin 32) :
    blkW3 m c t (ix2 k o) = (m ((c : Thread nD τ).loc main_arg6) : S64x32.Idx → EReal) (ix2 k o) := by
  obtain ⟨-, -, -, -, -, -, -, -, -, -, -, -, -, -, e0, e1, -⟩ := idx_facts t
  show V m c main_arg6 (((cfg0.win 6).blk t).view.emb (ix2 k o)) = _
  rw [V_main_arg6]
  refine congrArg _ (funext fun a => Fin.ext ?_)
  match a with
  | ⟨0, _⟩ => show win0_6.index t (0 : Fin 2) * 64 + 1 * k.val = k.val; omega
  | ⟨1, _⟩ => show win0_6.index t (1 : Fin 2) * 32 + 1 * o.val = o.val; omega

/-- The first bias comes as the one row of the 1 × 128 array the host reshaped it into. -/
theorem blkB1_apply (c : Dev nD) (t : Fin cfg0.N) (h : Fin 128) :
    blkB1 m c t (ix2 (0 : Fin 1) h) = (m ((c : Thread nD τ).loc main_arg3) : S128.Idx → EReal) (ix1 h) := by
  obtain ⟨-, -, -, -, -, -, -, -, e0, e1, -⟩ := idx_facts t
  show V m c main_v0 (((cfg0.win 3).blk t).view.emb (ix2 (0 : Fin 1) h)) = _
  refine (congrFun (V_main_v0 m c) _).trans ?_
  refine shapeCast_apply _ shapeCasts_S128_S1x128 _ (ix1 h) ?_
  rewrite [Shape.rowMajor_val_one, Shape.rowMajor_val_two]
  show h.val = (win0_3.index t (0 : Fin 2) * 1 + 1 * 0) * 128 + (win0_3.index t (1 : Fin 2) * 128 + 1 * h.val)
  omega

theorem blkB2_apply (c : Dev nD) (t : Fin cfg0.N) (k : Fin 64) :
    blkB2 m c t (ix2 (0 : Fin 1) k) = (m ((c : Thread nD τ).loc main_arg5) : S64.Idx → EReal) (ix1 k) := by
  obtain ⟨-, -, -, -, -, -, -, -, -, -, -, -, e0, e1, -⟩ := idx_facts t
  show V m c main_v1 (((cfg0.win 5).blk t).view.emb (ix2 (0 : Fin 1) k)) = _
  refine (congrFun (V_main_v1 m c) _).trans ?_
  refine shapeCast_apply _ shapeCasts_S64_S1x64 _ (ix1 k) ?_
  rewrite [Shape.rowMajor_val_one, Shape.rowMajor_val_two]
  show k.val = (win0_5.index t (0 : Fin 2) * 1 + 1 * 0) * 64 + (win0_5.index t (1 : Fin 2) * 64 + 1 * k.val)
  omega

theorem blkB3_apply (c : Dev nD) (t : Fin cfg0.N) (o : Fin 32) :
    blkB3 m c t (ix2 (0 : Fin 1) o) = (m ((c : Thread nD τ).loc main_arg7) : S32.Idx → EReal) (ix1 o) := by
  obtain ⟨-, -, -, -, -, -, -, -, -, -, -, -, -, -, -, -, e0, e1, -⟩ := idx_facts t
  show V m c main_v2 (((cfg0.win 7).blk t).view.emb (ix2 (0 : Fin 1) o)) = _
  refine (congrFun (V_main_v2 m c) _).trans ?_
  refine shapeCast_apply _ shapeCasts_S32_S1x32 _ (ix1 o) ?_
  rewrite [Shape.rowMajor_val_one, Shape.rowMajor_val_two]
  show o.val = (win0_7.index t (0 : Fin 2) * 1 + 1 * 0) * 32 + (win0_7.index t (1 : Fin 2) * 32 + 1 * o.val)
  omega

/-! ## What a grid point writes back, and the output array -/

/-- Point `t` writes back block `t` of `outArr`: entry `(g, o)` of what the body leaves is the network on graph
    `g` of the point's blocks, which are graph `32 t + g` of the arrays. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8]
  funext y
  obtain ⟨g, o, rfl⟩ : ∃ (g o : Fin 32), y = ix2 g o := ⟨y 0, y 1, eq_ix2 y⟩
  obtain ⟨-, -, -, -, -, -, -, -, -, -, -, -, -, -, -, -, -, -, e0, e1⟩ := idx_facts t
  show out0_8 (blkX m c t) (blkA m c t) (blkW1 m c t) (blkB1 m c t) (blkW2 m c t) (blkB2 m c t) (blkW3 m c t) (blkB3 m c t) (ix2 g o)
    = outArr m c (((cfg0.win 8).blk t).view.emb (ix2 g o))
  rw [block_apply]
  simp only [blkX_apply, blkA_apply, blkW1_apply, blkB1_apply, blkW2_apply, blkB2_apply, blkW3_apply, blkB3_apply]
  unfold outArr net
  have hb : (⟨(((cfg0.win 8).blk t).view.emb (ix2 g o) 0).val, (((cfg0.win 8).blk t).view.emb (ix2 g o) 0).isLt⟩ : Fin 512)
      = ⟨32 * t.val + g.val, by have := lt16 t; have := g.isLt; omega⟩ :=
    Fin.ext (by show win0_8.index t (0 : Fin 2) * 32 + 1 * g.val = 32 * t.val + g.val; omega)
  have ho : (⟨(((cfg0.win 8).blk t).view.emb (ix2 g o) 1).val, (((cfg0.win 8).blk t).view.emb (ix2 g o) 1).isLt⟩ : Fin 32) = o :=
    Fin.ext (by show win0_8.index t (1 : Fin 2) * 32 + 1 * o.val = o.val; omega)
  rw [hb, ho]

/-- An index of the output lies in point `t`'s block iff each coordinate is in the block's range on its axis. -/
theorem mem_blk8 (t : Fin cfg0.N) (i : S512x32.Idx) :
    i ∈ ((cfg0.win 8).blk t).view.set ↔ ∀ a : Fin 2, win0_8.index t a * S32x32.size a ≤ (i a).val ∧ (i a).val < win0_8.index t a * S32x32.size a + S32x32.size a := by
  show i ∈ ((View.whole main_v3).slice (win0_8.rect t)).set ↔ _
  rw [View.set_slice_whole, Rect.mem_set_unit]
  exact Iff.rfl

/-- Every one of the 16 row blocks is some point's. -/
theorem idx_onto8 : ∀ q : Fin 16, ∃ t : Fin cfg0.N, win0_8.index t = ![q.val, 0] :=
  (by decide +kernel : ∀ q : Fin 16, ∃ t : Fin grid0.N, win0_8.index t = ![q.val, 0])

/-- The blocks cover the output: row `r` is in the block of the point with index `r / 32`. -/
theorem cover8 (i : S512x32.Idx) : ∃ t : Fin cfg0.N, (cfg0.win 8).flush t = true ∧ i ∈ ((cfg0.win 8).blk t).view.set := by
  have hi0 : (i 0).val < 512 := (i 0).isLt
  have hi1 : (i 1).val < 32 := (i 1).isLt
  obtain ⟨t, ht⟩ := idx_onto8 ⟨(i 0).val / 32, by omega⟩
  have q0 : win0_8.index t (0 : Fin 2) = (i 0).val / 32 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 32 ≤ (i 0).val ∧ (i 0).val < win0_8.index t (0 : Fin 2) * 32 + 32; omega
  | ⟨1, _⟩ => show win0_8.index t (1 : Fin 2) * 32 ≤ (i 1).val ∧ (i 1).val < win0_8.index t (1 : Fin 2) * 32 + 32; omega

/-- The output array after the call. -/
theorem final8 (c : Dev nD) : (dats m 0 c).arrAt 8 cfg0.N = outArr m c :=
  (dats m 0 c).arrAt_eq_of_cover 8 (outArr m c) (fun t _ => flushed_eq m c t) (cover8)

/-! ## The host's last reshape, and the run -/

/-- The program's result: entry `(b, o, 0, 0)` is the network on graph `b`. -/
def result (c : Dev nD) : S512x32x1x1.Idx → EReal :=
  fun i => net m c ⟨(i 0).val, (i 0).isLt⟩ ⟨(i 1).val, (i 1).isLt⟩

theorem tail_eq (c : Dev nD) :
    (Pipeline.afterTail₀ cfgs (dats m) 0 (V0 m) [hostOps1] c main_v4 : S512x32x1x1.Idx → EReal) = result m c := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = outArr m c :=
    (Pipeline.withArrays_arr spec0 launch0.win.arr_inj c _ _ 8).trans (final8 m c)
  funext i
  show shapeCast S512x32x1x1 (Pipeline.withArrays (cfgs 0).spec c (V0 m c) (fun w => (dats m 0 c).arrAt w (cfgs 0).N) (Proc.devRef .tc main_v3))
    shapeCasts_S512x32_S512x32x1x1 i = _
  rw [hw]
  refine (shapeCast_apply (outArr m c) shapeCasts_S512x32_S512x32x1x1 i
    (ix2 (⟨(i 0).val, (i 0).isLt⟩ : Fin 512) (⟨(i 1).val, (i 1).isLt⟩ : Fin 32)) ?_).trans rfl
  rewrite [Shape.rowMajor_val_two, Shape.rowMajor_val_four]
  have h2 : (i 2).val < 1 := (i 2).isLt
  have h3 : (i 3).val < 1 := (i 3).isLt
  show (i 0).val * 32 + (i 1).val = (((i 0).val * 32 + (i 1).val) * 1 + (i 2).val) * 1 + (i 3).val
  omega

/-- Every weakly fair execution of the kernel's program ends with its result at `result` and its arguments
    unchanged: the frame run, its output array read by `final8` and carried through the last reshape. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.KerValue

end
-- ==== Proof.lean ====
/-
  The certificate of a three-layer graph convolution over 512 graphs of 16 nodes, fused into one call,
  against its dense reference.

  The reference flattens the graphs to 8192 rows, scatters the 512 adjacency blocks onto the diagonal of
  an 8192 × 8192 zero matrix, applies `max (A · (X · W) + b) 0` twice and `A · (X · W) + b` once with that
  matrix, and takes the mean over each graph's 16 rows. The kernel takes 32 graphs per grid point,
  builds the same block-diagonal structure for those 32 in a 512 × 512 tile from lane and sublane
  numbers, applies the first two layers with it, and fuses the third layer with the mean: the column
  sums of each adjacency block, scaled by 1/16, are contracted with the hidden features and then with the
  last weights, and the bias is added once.

  Both are, graph by graph, the functions of Proof/Spec.lean: a product with a block-diagonal matrix is
  the mix over one graph's nodes, since every other term is zero times something. The reference is
  `gcnR` of the graph (Proof/RefValue.lean over Proof/Scatter.lean), the kernel `gcnK` (Proof/KerBlock.lean
  over Proof/KerPieces.lean, carried from blocks to the array and through the host's reshapes in
  Proof/KerArray.lean). On real inputs `gcnK = gcnR` (Proof/Algebra.lean): that is distributivity and
  `16 b / 16 = b`, which need the inputs finite, and the precondition says they are (Proof/Finite.lean).
  The frames of the two kernel programs are the generated ones; the reference's frame is its generated
  run with the result dropped; the idealization rewrote nothing, so `preserves` is trivial.
-/
import proofs.«116657_g6493990551891_cont_9to1c4b_81_7_alg».proof.Defs
import proofs.«116657_g6493990551891_cont_9to1c4b_81_7_alg».proof.Proof.Gen.Kernel
import proofs.«116657_g6493990551891_cont_9to1c4b_81_7_alg».proof.Proof.Gen.Kernel.Frame
import proofs.«116657_g6493990551891_cont_9to1c4b_81_7_alg».proof.Proof.Gen.KernelIdeal
import proofs.«116657_g6493990551891_cont_9to1c4b_81_7_alg».proof.Proof.Gen.KernelIdeal.Frame
import proofs.«116657_g6493990551891_cont_9to1c4b_81_7_alg».proof.Proof.Gen.ReferenceIdeal
import proofs.«116657_g6493990551891_cont_9to1c4b_81_7_alg».proof.Proof.Gen.ReferenceIdeal.Run
import proofs.«116657_g6493990551891_cont_9to1c4b_81_7_alg».proof.Proof.Gen.ReferenceIdeal.Read
import proofs.«116657_g6493990551891_cont_9to1c4b_81_7_alg».proof.Proof.Gen.Pre_finite_inputs
import proofs.«116657_g6493990551891_cont_9to1c4b_81_7_alg».proof.Proof.Spec
import proofs.«116657_g6493990551891_cont_9to1c4b_81_7_alg».proof.Proof.Algebra
import proofs.«116657_g6493990551891_cont_9to1c4b_81_7_alg».proof.Proof.Finite
import proofs.«116657_g6493990551891_cont_9to1c4b_81_7_alg».proof.Proof.RefValue
import proofs.«116657_g6493990551891_cont_9to1c4b_81_7_alg».proof.Proof.KerArray
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel ends with entry `(b, o, 0, 0)` at `gcnK` of graph `b` and
    the reference at `gcnR` of graph `b`; the precondition makes every input entry real, and on reals the two agree. -/
theorem algebraic : Cert.algebraic_KernelIdeal_ReferenceIdeal := by
  intro m ρ m' ρ' hpre hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6, r7⟩ := Cert.Gcn.real_of_pre _ _ _ _ _ _ _ _ (hpre c)
  rw [Cert.ReferenceIdeal.Read.val_main_v59_eq]
  funext i
  rw [Cert.ReferenceIdeal.RefValue.ref_apply, (hagree c).1, (hagree c).2.1, (hagree c).2.2.1, (hagree c).2.2.2.1,
    (hagree c).2.2.2.2.1, (hagree c).2.2.2.2.2.1, (hagree c).2.2.2.2.2.2.1, (hagree c).2.2.2.2.2.2.2]
  show Cert.Gcn.gcnR _ _ _ _ _ _ _ _ _
    = Cert.KernelIdeal.KerValue.net m c ⟨(i 0).val, (i 0).isLt⟩ ⟨(i 1).val, (i 1).isLt⟩
  unfold Cert.KernelIdeal.KerValue.net
  exact (congrFun (Cert.Gcn.gcnK_eq_gcnR _ _ _ _ _ _ _ _ (fun a b => r1 _) (fun j d => r0 _) (fun d h => r2 _) (fun h => r3 _)
    (fun h k => r4 _) (fun k => r5 _) (fun k o => r6 _) (fun o => r7 _)) _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
